-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x2 .f32) (main_arg11 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x2 .f32 := Host.absf main_arg10
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64x128 .f32) (main_arg6 : FVec F S128 .f32) (main_arg7 : FVec F S128x128 .f32) (main_arg8 : FVec F S128 .f32) (main_arg9 : FVec F S128x128 .f32) (main_arg10 : FVec F S128x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x64 .f32) (main_arg3 : FVec F S128x128 .f32) (main_arg4 : FVec F S128 .f32) (main_arg5 : FVec F S64x128 .f32) (main_arg6 : FVec F S128 .f32) (main_arg7 : FVec F S128x128 .f32) (main_arg8 : FVec F S128 .f32) (main_arg9 : FVec F S128x128 .f32) (main_arg10 : FVec F S128x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x1 : Shape := ⟨2, ![5000, 1]⟩
abbrev S1x2 : Shape := ⟨2, ![1, 2]⟩
abbrev S800000x2 : Shape := ⟨2, ![800000, 2]⟩
abbrev S5000x64 : Shape := ⟨2, ![5000, 64]⟩
abbrev S5000x2 : Shape := ⟨2, ![5000, 2]⟩

abbrev nBuf : Space → Nat
  | .hbm => 61
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S50000x1, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S1x128, .f32⟩
  | .hbm, ⟨59, _⟩ => ⟨S1x2, .f32⟩
  | .hbm, ⟨60, _⟩ => ⟨S800000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x64, .f32⟩
  | .local _ .vmem, ⟨18, _⟩ => ⟨S5000x64, .f32⟩
  | .local _ .vmem, ⟨19, _⟩ => ⟨S64x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x2, .f32⟩
  | .local _ .vmem, ⟨26, _⟩ => ⟨S1x2, .f32⟩
  | .local _ .vmem, ⟨27, _⟩ => ⟨S5000x2, .f32⟩
  | .local _ .vmem, ⟨28, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  shapeCasts_S2_S1x2 : S2.ShapeCasts S1x2
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .f32 = 32 ∨ (Rect.block (s := S800000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S800000x128.size a
  hwx2_3 : ∀ i : grid2.Coords, EltTy.bits .f32 = 32 ∨ (Rect.block (s := S800000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S800000x128.size a
  hwx2_4 : ∀ i : grid2.Coords, EltTy.bits .f32 = 32 ∨ (Rect.block (s := S800000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x2.size a ≤ S128x2.size a
  hwx2_5 : ∀ i : grid2.Coords, EltTy.bits .f32 = 32 ∨ (Rect.block (s := S128x2) S128x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x2.size a ≤ S800000x2.size a
  hwx2_7 : ∀ i : grid2.Coords, EltTy.bits .f32 = 32 ∨ (Rect.block (s := S800000x2) S5000x2.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S5000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x128 : Shape := ⟨2, ![64, 128]⟩
abbrev S128x2 : Shape := ⟨2, ![128, 2]⟩
abbrev S2 : Shape := ⟨1, ![2]⟩
abbrev S1x128 : Shape := ⟨2, ![1, 128]⟩
abbrev S_ : Shape := ⟨0, ![]⟩
abbrev S800000x128 : Shape := ⟨2, ![800000, 128]⟩
abbrev S1x800000 : Shape := ⟨2, ![1, 800000]⟩
abbrev S800000 : Shape := ⟨1, ![800000]⟩
abbrev S800000x1 : Shape := ⟨2, ![800000, 1]⟩
abbrev S50000 : Shape := ⟨1, ![50000]⟩
abbrev S50000x1 : Shape := ⟨2, ![50000, 1]⟩
abbrev S800000x2 : Shape := ⟨2, ![800000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x2, .f32⟩
  | .hbm, ⟨11, _⟩ => ⟨S2, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S1x800000, .i32⟩
  | .hbm, ⟨27, _⟩ => ⟨S800000, .i32⟩
  | .hbm, ⟨28, _⟩ => ⟨S1x800000, .i32⟩
  | .hbm, ⟨29, _⟩ => ⟨S800000, .i32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S_, .f32⟩
  | .hbm, ⟨44, _⟩ => ⟨S800000, .f32⟩
  | .hbm, ⟨45, _⟩ => ⟨S_, .f32⟩
  | .hbm, ⟨46, _⟩ => ⟨S50000, .f32⟩
  | .hbm, ⟨47, _⟩ => ⟨S800000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S800000x2, .f32⟩
  | .hbm, ⟨85, _⟩ => ⟨S1x2, .f32⟩
  | .hbm, ⟨86, _⟩ => ⟨S800000x2, .f32⟩
  | .hbm, ⟨87, _⟩ => ⟨S800000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_v39 : Ref sig .tc := ⟨.hbm, 62, rfl⟩
abbrev main_v40 : Ref sig .tc := ⟨.hbm, 63, rfl⟩
abbrev main_c_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  dot_S50000x128_S128x128_S50000x128_1_0_0_1_n_n_wf : DotDims.WF S50000x128 S128x128 S50000x128 [1] [0] [0] [1] [] []
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S800000x128_S128x2_S800000x2_1_0_0_1_n_n_wf : DotDims.WF S800000x128 S128x2 S800000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x128_S128x2_S800000x2_1_0_0_1_n_n : DotDims S800000x128 S128x2 S800000x2 where
  lhsContracting := [1]
  rhsContracting := [0]
  lhsNonContracting := [0]
  rhsNonContracting := [1]
  lhsBatch := []
  rhsBatch := []
  wf := dot_S800000x128_S128x2_S800000x2_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.Spec.lean ====
/-
  The three dense stages of an edge-scoring graph network, read one row at a time over the extended reals.

  A row  x  of K numbers meets a [K, C] weight array  W  as the row  (x·W)_c = Σ_k x_k · W(k, c)  (`lin`).
  The node stage sends a feature row to  max(x·W + β, 0)  (`nodeRow`). The combine stage takes a node's summed
  neighbour row  a , the number  n  of its neighbours and its own row  h  to
  ((a / max(n, 1))·Wl + β) + h·Wr  (`combineRow`). The edge stage takes an edge's attribute row  e  and the combined
  rows  s, d  of its two end points to  (((s + d) + max(e·We + βe, 0)) · ⅓)·Wc + βc  (`edgeRow`), where ⅓ is the
  binary32 word both programs carry, never evaluated. Each stage on an array acts on every row by itself
  (`nodeArr`, `combineArr`, `edgeArr`), whatever the number of rows: that is why a tile of rows computed alone is the
  same rows of the whole stage.

  Below, each stage is read at an entry in the two spellings the programs use. The vector spelling narrows both
  operands of a product to bf16 (the identity on the extended reals), multiplies into a zero accumulator, and adds a
  bias kept as a [1, C] array stretched over the rows. The host spelling uses the general product and lays a [C] bias
  out as [1, C] and then over the rows. Both are the same sums.
-/
import proofs.«135330_j14267881357876_1_alg».proof.Proof.LibDense
import proofs.«135330_j14267881357876_1_alg».proof.Proof.LibBiasRow
import proofs.«135330_j14267881357876_1_alg».proof.Proof.LibKeepdimsColumn

noncomputable section

open scoped BigOperators

namespace Cert.EdgeGnn

open Idealize.ShloMosaic Idealize.ShloMosaic.ValueIdx

/-- The binary32 word of 1.0 read as an extended real. -/
abbrev one : EReal := Ideal.ofBits .f32 0x3F800000#32
/-- The binary32 word nearest one third, read as an extended real. -/
abbrev third : EReal := Ideal.ofBits .f32 0x3EAAAAAB#32

variable {R J K K' C : ℕ}

/-- A row against a weight array:  (x·W)_c = Σ_k x_k · W(k, c) . -/
def lin (W : FVec Ideal ⟨2, ![K, C]⟩ .f32) (x : Fin K → EReal) : Fin C → EReal :=
  fun c => ∑ k : Fin K, x k * W (ix2 k c)

/-- The node stage on a row:  max(x·W + β, 0) . -/
def nodeRow (W : FVec Ideal ⟨2, ![K, C]⟩ .f32) (β : Fin C → EReal) (x : Fin K → EReal) : Fin C → EReal :=
  fun c => max (lin W x c + β c) 0

/-- The combine stage on a row:  ((a / max(n, 1))·Wl + β) + h·Wr . -/
def combineRow (Wl : FVec Ideal ⟨2, ![K, C]⟩ .f32) (β : Fin C → EReal) (Wr : FVec Ideal ⟨2, ![K', C]⟩ .f32)
    (a : Fin K → EReal) (n : EReal) (h : Fin K' → EReal) : Fin C → EReal :=
  fun c => (lin Wl (fun k => Ideal.div (a k) (max n one)) c + β c) + lin Wr h c

/-- The edge stage on a row:  (((s + d) + max(e·We + βe, 0)) · ⅓)·Wc + βc . -/
def edgeRow (We : FVec Ideal ⟨2, ![J, K]⟩ .f32) (βe : Fin K → EReal) (Wc : FVec Ideal ⟨2, ![K, C]⟩ .f32)
    (βc : Fin C → EReal) (e : Fin J → EReal) (s d : Fin K → EReal) : Fin C → EReal :=
  fun c => lin Wc (fun k => ((s k + d k) + nodeRow We βe e k) * third) c + βc c

/-- Row r of an [R, K] array. -/
abbrev rowOf (X : FVec Ideal ⟨2, ![R, K]⟩ .f32) (r : Fin R) : Fin K → EReal := fun k => X (ix2 r k)

/-- The node stage on every row of an array. -/
def nodeArr (X : FVec Ideal ⟨2, ![R, K]⟩ .f32) (W : FVec Ideal ⟨2, ![K, C]⟩ .f32) (β : Fin C → EReal) :
    FVec Ideal ⟨2, ![R, C]⟩ .f32 :=
  fun i => nodeRow W β (rowOf X (i 0)) (i 1)

/-- The combine stage on every row: the summed neighbour rows  A , the neighbour counts  n , the nodes' rows  H . -/
def combineArr (A : FVec Ideal ⟨2, ![R, K]⟩ .f32) (n : Fin R → EReal) (H : FVec Ideal ⟨2, ![R, K']⟩ .f32)
    (Wl : FVec Ideal ⟨2, ![K, C]⟩ .f32) (β : Fin C → EReal) (Wr : FVec Ideal ⟨2, ![K', C]⟩ .f32) :
    FVec Ideal ⟨2, ![R, C]⟩ .f32 :=
  fun i => combineRow Wl β Wr (rowOf A (i 0)) (n (i 0)) (rowOf H (i 0)) (i 1)

/-- The edge stage on every row: the edge attributes  E , the end points' combined rows  S ,  D . -/
def edgeArr (E : FVec Ideal ⟨2, ![R, J]⟩ .f32) (We : FVec Ideal ⟨2, ![J, K]⟩ .f32) (βe : Fin K → EReal)
    (S D : FVec Ideal ⟨2, ![R, K]⟩ .f32) (Wc : FVec Ideal ⟨2, ![K, C]⟩ .f32) (βc : Fin C → EReal) :
    FVec Ideal ⟨2, ![R, C]⟩ .f32 :=
  fun i => edgeRow We βe Wc βc (rowOf E (i 0)) (rowOf S (i 0)) (rowOf D (i 0)) (i 1)

theorem nodeArr_apply (X : FVec Ideal ⟨2, ![R, K]⟩ .f32) (W : FVec Ideal ⟨2, ![K, C]⟩ .f32) (β : Fin C → EReal)
    (r : Fin R) (c : Fin C) : nodeArr X W β (ix2 r c) = nodeRow W β (rowOf X r) c := rfl

theorem combineArr_apply (A : FVec Ideal ⟨2, ![R, K]⟩ .f32) (n : Fin R → EReal) (H : FVec Ideal ⟨2, ![R, K']⟩ .f32)
    (Wl : FVec Ideal ⟨2, ![K, C]⟩ .f32) (β : Fin C → EReal) (Wr : FVec Ideal ⟨2, ![K', C]⟩ .f32) (r : Fin R) (c : Fin C) :
    combineArr A n H Wl β Wr (ix2 r c) = combineRow Wl β Wr (rowOf A r) (n r) (rowOf H r) c := rfl

theorem edgeArr_apply (E : FVec Ideal ⟨2, ![R, J]⟩ .f32) (We : FVec Ideal ⟨2, ![J, K]⟩ .f32) (βe : Fin K → EReal)
    (S D : FVec Ideal ⟨2, ![R, K]⟩ .f32) (Wc : FVec Ideal ⟨2, ![K, C]⟩ .f32) (βc : Fin C → EReal) (r : Fin R) (c : Fin C) :
    edgeArr E We βe S D Wc βc (ix2 r c) = edgeRow We βe Wc βc (rowOf E r) (rowOf S r) (rowOf D r) c := rfl

/-- Equal weights, biases, rows and columns give equal node-stage entries. -/
theorem nodeRow_congr {W W' : FVec Ideal ⟨2, ![K, C]⟩ .f32} {β β' : Fin C → EReal} {x x' : Fin K → EReal} {c c' : Fin C}
    (hW : W = W') (hβ : β = β') (hx : x = x') (hc : c = c') : nodeRow W β x c = nodeRow W' β' x' c' := by
  subst hW hβ hx hc; rfl

/-- Equal weights, biases, rows, counts and columns give equal combine-stage entries. -/
theorem combineRow_congr {Wl Wl' : FVec Ideal ⟨2, ![K, C]⟩ .f32} {β β' : Fin C → EReal}
    {Wr Wr' : FVec Ideal ⟨2, ![K', C]⟩ .f32} {a a' : Fin K → EReal} {n n' : EReal} {h h' : Fin K' → EReal} {c c' : Fin C}
    (hWl : Wl = Wl') (hβ : β = β') (hWr : Wr = Wr') (ha : a = a') (hn : n = n') (hh : h = h') (hc : c = c') :
    combineRow Wl β Wr a n h c = combineRow Wl' β' Wr' a' n' h' c' := by
  subst hWl hβ hWr ha hn hh hc; rfl

/-- Equal weights, biases, rows and columns give equal edge-stage entries. -/
theorem edgeRow_congr {We We' : FVec Ideal ⟨2, ![J, K]⟩ .f32} {βe βe' : Fin K → EReal}
    {Wc Wc' : FVec Ideal ⟨2, ![K, C]⟩ .f32} {βc βc' : Fin C → EReal} {e e' : Fin J → EReal} {s s' d d' : Fin K → EReal}
    {c c' : Fin C}
    (hWe : We = We') (hβe : βe = βe') (hWc : Wc = Wc') (hβc : βc = βc') (he : e = e') (hs : s = s') (hd : d = d')
    (hc : c = c') : edgeRow We βe Wc βc e s d c = edgeRow We' βe' Wc' βc' e' s' d' c' := by
  subst hWe hβe hWc hβc he hs hd hc; rfl

/-! ## Small layout facts -/

/-- A scalar word laid out over a whole array reads that word's value everywhere. -/
theorem splat_inDim_apply {s : Shape} (hb0 : (⟨0, ![]⟩ : Shape).BroadcastsInDim s (![] : Fin 0 → Fin s.rank))
    (w : BitVec 32) (i : s.Idx) :
    broadcastInDim s ![] hb0 (constant (F := Ideal) ⟨0, ![]⟩ .f32 w) i = Ideal.ofBits .f32 w := by
  have e : broadcastInDim s ![] hb0 (constant (F := Ideal) ⟨0, ![]⟩ .f32 w) i
      = constant (F := Ideal) ⟨0, ![]⟩ .f32 w ix0 :=
    broadcastInDim_apply ![] hb0 _ i ix0 fun a => a.elim0
  rw [e, constant_apply]

/-- A vector of length R laid out as an [R, 1] column on axis 0 reads, at (r, 0), its entry r. -/
theorem column_inDim_apply {α : Type} (hb : (⟨1, ![R]⟩ : Shape).BroadcastsInDim ⟨2, ![R, 1]⟩ (![0] : Fin 1 → Fin 2))
    (v : (⟨1, ![R]⟩ : Shape).Idx → α) (r : Fin R) :
    broadcastInDim ⟨2, ![R, 1]⟩ ![0] hb v (ix2 r (0 : Fin 1)) = v (ix1 r) := by
  refine broadcastInDim_apply ![0] hb v (ix2 r (0 : Fin 1)) (ix1 r) fun a => ?_
  match a with
  | ⟨0, _⟩ =>
    show r.val = if R = 1 then 0 else r.val
    split
    · have := r.isLt; omega
    · rfl

/-- An [R, 1] column laid out over the K columns of an [R, K] array on axes (0, 1) reads, at (r, k), the column's
    entry (r, 0). -/
theorem spread_inDim_apply {α : Type}
    (hb : (⟨2, ![R, 1]⟩ : Shape).BroadcastsInDim ⟨2, ![R, K]⟩ (![0, 1] : Fin 2 → Fin 2))
    (v : (⟨2, ![R, 1]⟩ : Shape).Idx → α) (r : Fin R) (k : Fin K) :
    broadcastInDim ⟨2, ![R, K]⟩ ![0, 1] hb v (ix2 r k) = v (ix2 r (0 : Fin 1)) := by
  refine broadcastInDim_apply ![0, 1] hb v (ix2 r k) (ix2 r (0 : Fin 1)) fun a => ?_
  match a with
  | ⟨0, _⟩ =>
    show r.val = if R = 1 then 0 else r.val
    split
    · have := r.isLt; omega
    · rfl
  | ⟨1, _⟩ => exact (if_pos rfl).symm

/-! ## The node stage in both spellings -/

/-- The vector spelling of the node stage on a tile of R rows, at (r, c). -/
theorem kernel_node_apply (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hself : (⟨2, ![1, C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨2, ![1, C]⟩ .f32)
    (r : Fin R) (c : Fin C) :
    maximumf (addf (matmul d none (truncf .bf16 X hlt) (truncf .bf16 W hlt) (constant ⟨2, ![R, C]⟩ .f32 0x00000000#32))
        (broadcastTo ⟨2, ![R, C]⟩ (shapeCast ⟨2, ![1, C]⟩ b hself) hbc))
      (broadcast ⟨2, ![R, C]⟩ (Scalar.ofBits (F := Ideal) .f32 0x00000000#32)) (ix2 r c)
      = nodeRow W (fun q => b (ix2 (0 : Fin 1) q)) (rowOf X r) c := by
  -- the rectifier at the entry, the product as the sum over k, the bias row read at (0, c)
  rw [Dense.kernel_relu_apply, addf_apply, Dense.matmul_zero_plain_apply d h1 h2 h3 h4 h5 h6, shapeCast_self,
    BiasRow.stretch_row_apply hbc]
  rfl

/-- The host spelling of the node stage, at (r, c). -/
theorem host_node_apply (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (hb0 : (⟨0, ![]⟩ : Shape).BroadcastsInDim ⟨2, ![R, C]⟩ (![] : Fin 0 → Fin 2))
    (X : FVec Ideal ⟨2, ![R, K]⟩ .f32) (W : FVec Ideal ⟨2, ![K, C]⟩ .f32) (b : FVec Ideal ⟨1, ![C]⟩ .f32)
    (r : Fin R) (c : Fin C) :
    maximumf (addf (Host.dotGeneral d none X W)
        (broadcastInDim ⟨2, ![R, C]⟩ ![0, 1] hb2 (broadcastInDim ⟨2, ![1, C]⟩ ![1] hb1 b)))
      (broadcastInDim ⟨2, ![R, C]⟩ ![] hb0 (constant (F := Ideal) ⟨0, ![]⟩ .f32 0x00000000#32)) (ix2 r c)
      = nodeRow W (fun q => b (ix1 q)) (rowOf X r) c := by
  rw [Dense.host_relu_apply hb0, addf_apply, Dense.dotGeneral_plain_apply d h1 h2 h3 h4 h5 h6,
    BiasRow.layout_layout_apply hb1 hb2]
  rfl

/-! ## The combine stage in both spellings -/

/-- The vector spelling of the combine stage on a tile of R rows, at (r, c): the counts arrive as an [R, 1] column. -/
theorem kernel_combine_apply (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (d' : DotDims ⟨2, ![R, K']⟩ ⟨2, ![K', C]⟩ ⟨2, ![R, C]⟩)
    (g1 : d'.lhsContracting = [1]) (g2 : d'.rhsContracting = [0]) (g3 : d'.lhsNonContracting = [0])
    (g4 : d'.rhsNonContracting = [1]) (g5 : d'.lhsBatch = []) (g6 : d'.rhsBatch = [])
    (hlt : FTy.bits .bf16 < FTy.bits .f32)
    (hcA : (⟨2, ![R, K]⟩ : Shape).ShapeCasts ⟨2, ![R, K]⟩) (hcH : (⟨2, ![R, K']⟩ : Shape).ShapeCasts ⟨2, ![R, K']⟩)
    (hcn : (⟨2, ![R, 1]⟩ : Shape).ShapeCasts ⟨2, ![R, 1]⟩) (hbn : (⟨2, ![R, 1]⟩ : Shape).Broadcasts ⟨2, ![R, K]⟩)
    (hself : (⟨2, ![1, C]⟩ : Shape).ShapeCasts ⟨2, ![1, C]⟩) (hbc : (⟨2, ![1, C]⟩ : Shape).Broadcasts ⟨2, ![R, C]⟩)
    (A : FVec Ideal ⟨2, ![R, K]⟩ .f32) (n : FVec Ideal ⟨2, ![R, 1]⟩ .f32) (H : FVec Ideal ⟨2, ![R, K']⟩ .f32)
    (Wl : FVec Ideal ⟨2, ![K, C]⟩ .f32) (b : FVec Ideal ⟨2, ![1, C]⟩ .f32) (Wr : FVec Ideal ⟨2, ![K', C]⟩ .f32)
    (r : Fin R) (c : Fin C) :
    addf (addf (matmul d none
          (truncf .bf16 (divf (shapeCast ⟨2, ![R, K]⟩ A hcA)
            (broadcastTo ⟨2, ![R, K]⟩ (maximumf (shapeCast ⟨2, ![R, 1]⟩ n hcn)
              (broadcast ⟨2, ![R, 1]⟩ (Scalar.ofBits (F := Ideal) .f32 0x3F800000#32))) hbn)) hlt)
          (truncf .bf16 Wl hlt) (constant ⟨2, ![R, C]⟩ .f32 0x00000000#32))
        (broadcastTo ⟨2, ![R, C]⟩ (shapeCast ⟨2, ![1, C]⟩ b hself) hbc))
      (matmul d' none (truncf .bf16 (shapeCast ⟨2, ![R, K']⟩ H hcH) hlt) (truncf .bf16 Wr hlt)
        (constant ⟨2, ![R, C]⟩ .f32 0x00000000#32)) (ix2 r c)
      = combineRow Wl (fun q => b (ix2 (0 : Fin 1) q)) Wr (rowOf A r) (n (ix2 r (0 : Fin 1))) (rowOf H r) c := by
  rw [addf_apply, addf_apply, Dense.matmul_zero_plain_apply d h1 h2 h3 h4 h5 h6,
    Dense.matmul_zero_plain_apply d' g1 g2 g3 g4 g5 g6]
  simp only [shapeCast_self]
  rw [BiasRow.stretch_row_apply hbc]
  -- each term of the first sum: the neighbour sum over the count column's entry in row r
  have hk : ∀ k : Fin K, truncf .bf16 (divf A (broadcastTo ⟨2, ![R, K]⟩ (maximumf n
        (broadcast ⟨2, ![R, 1]⟩ (Scalar.ofBits (F := Ideal) .f32 0x3F800000#32))) hbn)) hlt (ix2 r k)
      = Ideal.div (A (ix2 r k)) (max (n (ix2 r (0 : Fin 1))) one) := fun k => by
    show Ideal.div (A (ix2 r k)) (broadcastTo ⟨2, ![R, K]⟩ (maximumf n
        (broadcast ⟨2, ![R, 1]⟩ (Scalar.ofBits (F := Ideal) .f32 0x3F800000#32))) hbn (ix2 r k)) = _
    rw [LibKeepdimsColumn.broadcastTo_a1_ab_apply]
    rfl
  simp only [hk]
  rfl

/-- The host spelling of the combine stage, at (r, c): the counts arrive as a vector of length R. -/
theorem host_combine_apply (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (d' : DotDims ⟨2, ![R, K']⟩ ⟨2, ![K', C]⟩ ⟨2, ![R, C]⟩)
    (g1 : d'.lhsContracting = [1]) (g2 : d'.rhsContracting = [0]) (g3 : d'.lhsNonContracting = [0])
    (g4 : d'.rhsNonContracting = [1]) (g5 : d'.lhsBatch = []) (g6 : d'.rhsBatch = [])
    (h0 : (⟨0, ![]⟩ : Shape).BroadcastsInDim ⟨1, ![R]⟩ (![] : Fin 0 → Fin 1))
    (hcol : (⟨1, ![R]⟩ : Shape).BroadcastsInDim ⟨2, ![R, 1]⟩ (![0] : Fin 1 → Fin 2))
    (hsp : (⟨2, ![R, 1]⟩ : Shape).BroadcastsInDim ⟨2, ![R, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A : FVec Ideal ⟨2, ![R, K]⟩ .f32) (n : FVec Ideal ⟨1, ![R]⟩ .f32) (H : FVec Ideal ⟨2, ![R, K']⟩ .f32)
    (Wl : FVec Ideal ⟨2, ![K, C]⟩ .f32) (b : FVec Ideal ⟨1, ![C]⟩ .f32) (Wr : FVec Ideal ⟨2, ![K', C]⟩ .f32)
    (r : Fin R) (c : Fin C) :
    addf (addf (Host.dotGeneral d none
          (Host.divf A (broadcastInDim ⟨2, ![R, K]⟩ ![0, 1] hsp (broadcastInDim ⟨2, ![R, 1]⟩ ![0] hcol
            (maximumf n (broadcastInDim ⟨1, ![R]⟩ ![] h0 (constant (F := Ideal) ⟨0, ![]⟩ .f32 0x3F800000#32)))))) Wl)
        (broadcastInDim ⟨2, ![R, C]⟩ ![0, 1] hb2 (broadcastInDim ⟨2, ![1, C]⟩ ![1] hb1 b)))
      (Host.dotGeneral d' none H Wr) (ix2 r c)
      = combineRow Wl (fun q => b (ix1 q)) Wr (rowOf A r) (n (ix1 r)) (rowOf H r) c := by
  rw [addf_apply, addf_apply, Dense.dotGeneral_plain_apply d h1 h2 h3 h4 h5 h6,
    Dense.dotGeneral_plain_apply d' g1 g2 g3 g4 g5 g6, BiasRow.layout_layout_apply hb1 hb2]
  have hk : ∀ k : Fin K, Host.divf A (broadcastInDim ⟨2, ![R, K]⟩ ![0, 1] hsp (broadcastInDim ⟨2, ![R, 1]⟩ ![0] hcol
        (maximumf n (broadcastInDim ⟨1, ![R]⟩ ![] h0 (constant (F := Ideal) ⟨0, ![]⟩ .f32 0x3F800000#32))))) (ix2 r k)
      = Ideal.div (A (ix2 r k)) (max (n (ix1 r)) one) := fun k => by
    show Ideal.div (A (ix2 r k)) (broadcastInDim ⟨2, ![R, K]⟩ ![0, 1] hsp (broadcastInDim ⟨2, ![R, 1]⟩ ![0] hcol
        (maximumf n (broadcastInDim ⟨1, ![R]⟩ ![] h0 (constant (F := Ideal) ⟨0, ![]⟩ .f32 0x3F800000#32)))) (ix2 r k)) = _
    rw [spread_inDim_apply hsp, column_inDim_apply hcol, maximumf_apply, splat_inDim_apply h0]
  simp only [hk]
  rfl

/-! ## The edge stage in both spellings -/

/-- The vector spelling of the edge stage on a tile of R rows, at (r, c). -/
theorem kernel_edge_apply (d1 : DotDims ⟨2, ![R, J]⟩ ⟨2, ![J, K]⟩ ⟨2, ![R, K]⟩)
    (h1 : d1.lhsContracting = [1]) (h2 : d1.rhsContracting = [0]) (h3 : d1.lhsNonContracting = [0])
    (h4 : d1.rhsNonContracting = [1]) (h5 : d1.lhsBatch = []) (h6 : d1.rhsBatch = [])
    (d2 : DotDims ⟨2, ![R, K]⟩ ⟨2, ![K, C]⟩ ⟨2, ![R, C]⟩)
    (g1 : d2.lhsContracting = [1]) (g2 : d2.rhsContracting = [0]) (g3 : d2.lhsNonContracting = [0])
    (g4 : d2.rhsNonContracting = [1]) (g5 : d2.lhsBatch = []) (g6 : d2.rhsBatch = [])
    (hlt : FTy.bits .bf16 < FTy.bits .f32)
    (hcS : (⟨2, ![R, K]⟩ : Shape).ShapeCasts ⟨2, ![R, K]⟩)
    (hselfK : (⟨2, ![1, K]⟩ : Shape).ShapeCasts ⟨2, ![1, K]⟩) (hbK : (⟨2, ![1, K]⟩ : Shape).Broadcasts ⟨2, ![R, K]⟩)
    (hselfC : (⟨2, ![1, C]⟩ : Shape).ShapeCasts ⟨2, ![1, C]⟩) (hbC : (⟨2, ![1, C]⟩ : Shape).Broadcasts ⟨2, ![R, C]⟩)
    (E : FVec Ideal ⟨2, ![R, J]⟩ .f32) (We : FVec Ideal ⟨2, ![J, K]⟩ .f32) (be : FVec Ideal ⟨2, ![1, K]⟩ .f32)
    (S D : FVec Ideal ⟨2, ![R, K]⟩ .f32) (Wc : FVec Ideal ⟨2, ![K, C]⟩ .f32) (bc : FVec Ideal ⟨2, ![1, C]⟩ .f32)
    (r : Fin R) (c : Fin C) :
    addf (matmul d2 none
        (truncf .bf16 (mulf (addf (addf (shapeCast ⟨2, ![R, K]⟩ S hcS) (shapeCast ⟨2, ![R, K]⟩ D hcS))
            (maximumf (addf (matmul d1 none (truncf .bf16 E hlt) (truncf .bf16 We hlt)
                  (constant ⟨2, ![R, K]⟩ .f32 0x00000000#32))
                (broadcastTo ⟨2, ![R, K]⟩ (shapeCast ⟨2, ![1, K]⟩ be hselfK) hbK))
              (broadcast ⟨2, ![R, K]⟩ (Scalar.ofBits (F := Ideal) .f32 0x00000000#32))))
          (broadcast ⟨2, ![R, K]⟩ (Scalar.ofBits (F := Ideal) .f32 0x3EAAAAAB#32))) hlt)
        (truncf .bf16 Wc hlt) (constant ⟨2, ![R, C]⟩ .f32 0x00000000#32))
      (broadcastTo ⟨2, ![R, C]⟩ (shapeCast ⟨2, ![1, C]⟩ bc hselfC) hbC) (ix2 r c)
      = edgeRow We (fun q => be (ix2 (0 : Fin 1) q)) Wc (fun q => bc (ix2 (0 : Fin 1) q))
          (rowOf E r) (rowOf S r) (rowOf D r) c := by
  rw [addf_apply, Dense.matmul_zero_plain_apply d2 g1 g2 g3 g4 g5 g6]
  simp only [shapeCast_self]
  rw [BiasRow.stretch_row_apply hbC]
  -- each term of the sum: the two end rows and the rectified edge row, times the word of one third
  have hk : ∀ k : Fin K, truncf .bf16 (mulf (addf (addf S D)
          (maximumf (addf (matmul d1 none (truncf .bf16 E hlt) (truncf .bf16 We hlt)
                (constant ⟨2, ![R, K]⟩ .f32 0x00000000#32))
              (broadcastTo ⟨2, ![R, K]⟩ be hbK))
            (broadcast ⟨2, ![R, K]⟩ (Scalar.ofBits (F := Ideal) .f32 0x00000000#32))))
        (broadcast ⟨2, ![R, K]⟩ (Scalar.ofBits (F := Ideal) .f32 0x3EAAAAAB#32))) hlt (ix2 r k)
      = ((S (ix2 r k) + D (ix2 r k)) + nodeRow We (fun q => be (ix2 (0 : Fin 1) q)) (rowOf E r) k) * third := fun k => by
    have e := kernel_node_apply d1 h1 h2 h3 h4 h5 h6 hlt hselfK hbK E We be r k
    rw [shapeCast_self] at e
    rw [← e]
    rfl
  simp only [hk]
  rfl

/-- The host spelling of the edge stage, at (r, c). -/
theorem host_edge_apply (d1 : DotDims ⟨2, ![R, J]⟩ ⟨2, ![J, K]⟩ ⟨2, ![R, K]⟩)
    (h1 : d1.lhsContracting = [1]) (h2 : d1.rhsContracting = [0]) (h3 : d1.lhsNonContracting = [0])
    (h4 : d1.rhsNonContracting = [1]) (h5 : d1.lhsBatch = []) (h6 : d1.rhsBatch = [])
    (d2 : DotDims ⟨2, ![R, K]⟩ ⟨2, ![K, C]⟩ ⟨2, ![R, C]⟩)
    (g1 : d2.lhsContracting = [1]) (g2 : d2.rhsContracting = [0]) (g3 : d2.lhsNonContracting = [0])
    (g4 : d2.rhsNonContracting = [1]) (g5 : d2.lhsBatch = []) (g6 : d2.rhsBatch = [])
    (hK1 : (⟨1, ![K]⟩ : Shape).BroadcastsInDim ⟨2, ![1, K]⟩ (![1] : Fin 1 → Fin 2))
    (hK2 : (⟨2, ![1, K]⟩ : Shape).BroadcastsInDim ⟨2, ![R, K]⟩ (![0, 1] : Fin 2 → Fin 2))
    (hK0 : (⟨0, ![]⟩ : Shape).BroadcastsInDim ⟨2, ![R, K]⟩ (![] : Fin 0 → Fin 2))
    (hC1 : (⟨1, ![C]⟩ : Shape).BroadcastsInDim ⟨2, ![1, C]⟩ (![1] : Fin 1 → Fin 2))
    (hC2 : (⟨2, ![1, C]⟩ : Shape).BroadcastsInDim ⟨2, ![R, C]⟩ (![0, 1] : Fin 2 → Fin 2))
    (E : FVec Ideal ⟨2, ![R, J]⟩ .f32) (We : FVec Ideal ⟨2, ![J, K]⟩ .f32) (be : FVec Ideal ⟨1, ![K]⟩ .f32)
    (S D : FVec Ideal ⟨2, ![R, K]⟩ .f32) (Wc : FVec Ideal ⟨2, ![K, C]⟩ .f32) (bc : FVec Ideal ⟨1, ![C]⟩ .f32)
    (r : Fin R) (c : Fin C) :
    addf (Host.dotGeneral d2 none
        (mulf (addf (addf S D)
            (maximumf (addf (Host.dotGeneral d1 none E We)
                (broadcastInDim ⟨2, ![R, K]⟩ ![0, 1] hK2 (broadcastInDim ⟨2, ![1, K]⟩ ![1] hK1 be)))
              (broadcastInDim ⟨2, ![R, K]⟩ ![] hK0 (constant (F := Ideal) ⟨0, ![]⟩ .f32 0x00000000#32))))
          (broadcastInDim ⟨2, ![R, K]⟩ ![] hK0 (constant (F := Ideal) ⟨0, ![]⟩ .f32 0x3EAAAAAB#32))) Wc)
      (broadcastInDim ⟨2, ![R, C]⟩ ![0, 1] hC2 (broadcastInDim ⟨2, ![1, C]⟩ ![1] hC1 bc)) (ix2 r c)
      = edgeRow We (fun q => be (ix1 q)) Wc (fun q => bc (ix1 q)) (rowOf E r) (rowOf S r) (rowOf D r) c := by
  rw [addf_apply, Dense.dotGeneral_plain_apply d2 g1 g2 g3 g4 g5 g6, BiasRow.layout_layout_apply hC1 hC2]
  have hk : ∀ k : Fin K, mulf (addf (addf S D)
          (maximumf (addf (Host.dotGeneral d1 none E We)
              (broadcastInDim ⟨2, ![R, K]⟩ ![0, 1] hK2 (broadcastInDim ⟨2, ![1, K]⟩ ![1] hK1 be)))
            (broadcastInDim ⟨2, ![R, K]⟩ ![] hK0 (constant (F := Ideal) ⟨0, ![]⟩ .f32 0x00000000#32))))
        (broadcastInDim ⟨2, ![R, K]⟩ ![] hK0 (constant (F := Ideal) ⟨0, ![]⟩ .f32 0x3EAAAAAB#32)) (ix2 r k)
      = ((S (ix2 r k) + D (ix2 r k)) + nodeRow We (fun q => be (ix1 q)) (rowOf E r) k) * third := fun k => by
    rw [mulf_apply, addf_apply, addf_apply, host_node_apply d1 h1 h2 h3 h4 h5 h6 hK1 hK2 hK0, splat_inDim_apply hK0]
  simp only [hk]
  rfl

/-! ## The stages as whole arrays in the host spelling -/

/-- The host's node stage is `nodeArr`. -/
theorem host_node_eq (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (hb0 : (⟨0, ![]⟩ : Shape).BroadcastsInDim ⟨2, ![R, C]⟩ (![] : Fin 0 → Fin 2))
    (X : FVec Ideal ⟨2, ![R, K]⟩ .f32) (W : FVec Ideal ⟨2, ![K, C]⟩ .f32) (b : FVec Ideal ⟨1, ![C]⟩ .f32) :
    maximumf (addf (Host.dotGeneral d none X W)
        (broadcastInDim ⟨2, ![R, C]⟩ ![0, 1] hb2 (broadcastInDim ⟨2, ![1, C]⟩ ![1] hb1 b)))
      (broadcastInDim ⟨2, ![R, C]⟩ ![] hb0 (constant (F := Ideal) ⟨0, ![]⟩ .f32 0x00000000#32))
      = nodeArr X W (fun q => b (ix1 q)) := by
  funext i
  obtain ⟨r, c, rfl⟩ : ∃ (r : Fin R) (c : Fin C), i = ix2 r c := ⟨i 0, i 1, eq_ix2 i⟩
  exact host_node_apply d h1 h2 h3 h4 h5 h6 hb1 hb2 hb0 X W b r c

/-- The host's combine stage is `combineArr`. -/
theorem host_combine_eq (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (d' : DotDims ⟨2, ![R, K']⟩ ⟨2, ![K', C]⟩ ⟨2, ![R, C]⟩)
    (g1 : d'.lhsContracting = [1]) (g2 : d'.rhsContracting = [0]) (g3 : d'.lhsNonContracting = [0])
    (g4 : d'.rhsNonContracting = [1]) (g5 : d'.lhsBatch = []) (g6 : d'.rhsBatch = [])
    (h0 : (⟨0, ![]⟩ : Shape).BroadcastsInDim ⟨1, ![R]⟩ (![] : Fin 0 → Fin 1))
    (hcol : (⟨1, ![R]⟩ : Shape).BroadcastsInDim ⟨2, ![R, 1]⟩ (![0] : Fin 1 → Fin 2))
    (hsp : (⟨2, ![R, 1]⟩ : Shape).BroadcastsInDim ⟨2, ![R, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A : FVec Ideal ⟨2, ![R, K]⟩ .f32) (n : FVec Ideal ⟨1, ![R]⟩ .f32) (H : FVec Ideal ⟨2, ![R, K']⟩ .f32)
    (Wl : FVec Ideal ⟨2, ![K, C]⟩ .f32) (b : FVec Ideal ⟨1, ![C]⟩ .f32) (Wr : FVec Ideal ⟨2, ![K', C]⟩ .f32) :
    addf (addf (Host.dotGeneral d none
          (Host.divf A (broadcastInDim ⟨2, ![R, K]⟩ ![0, 1] hsp (broadcastInDim ⟨2, ![R, 1]⟩ ![0] hcol
            (maximumf n (broadcastInDim ⟨1, ![R]⟩ ![] h0 (constant (F := Ideal) ⟨0, ![]⟩ .f32 0x3F800000#32)))))) Wl)
        (broadcastInDim ⟨2, ![R, C]⟩ ![0, 1] hb2 (broadcastInDim ⟨2, ![1, C]⟩ ![1] hb1 b)))
      (Host.dotGeneral d' none H Wr)
      = combineArr A (fun r => n (ix1 r)) H Wl (fun q => b (ix1 q)) Wr := by
  funext i
  obtain ⟨r, c, rfl⟩ : ∃ (r : Fin R) (c : Fin C), i = ix2 r c := ⟨i 0, i 1, eq_ix2 i⟩
  exact host_combine_apply d h1 h2 h3 h4 h5 h6 d' g1 g2 g3 g4 g5 g6 h0 hcol hsp hb1 hb2 A n H Wl b Wr r c

/-- The host's edge stage is `edgeArr`. -/
theorem host_edge_eq (d1 : DotDims ⟨2, ![R, J]⟩ ⟨2, ![J, K]⟩ ⟨2, ![R, K]⟩)
    (h1 : d1.lhsContracting = [1]) (h2 : d1.rhsContracting = [0]) (h3 : d1.lhsNonContracting = [0])
    (h4 : d1.rhsNonContracting = [1]) (h5 : d1.lhsBatch = []) (h6 : d1.rhsBatch = [])
    (d2 : DotDims ⟨2, ![R, K]⟩ ⟨2, ![K, C]⟩ ⟨2, ![R, C]⟩)
    (g1 : d2.lhsContracting = [1]) (g2 : d2.rhsContracting = [0]) (g3 : d2.lhsNonContracting = [0])
    (g4 : d2.rhsNonContracting = [1]) (g5 : d2.lhsBatch = []) (g6 : d2.rhsBatch = [])
    (hK1 : (⟨1, ![K]⟩ : Shape).BroadcastsInDim ⟨2, ![1, K]⟩ (![1] : Fin 1 → Fin 2))
    (hK2 : (⟨2, ![1, K]⟩ : Shape).BroadcastsInDim ⟨2, ![R, K]⟩ (![0, 1] : Fin 2 → Fin 2))
    (hK0 : (⟨0, ![]⟩ : Shape).BroadcastsInDim ⟨2, ![R, K]⟩ (![] : Fin 0 → Fin 2))
    (hC1 : (⟨1, ![C]⟩ : Shape).BroadcastsInDim ⟨2, ![1, C]⟩ (![1] : Fin 1 → Fin 2))
    (hC2 : (⟨2, ![1, C]⟩ : Shape).BroadcastsInDim ⟨2, ![R, C]⟩ (![0, 1] : Fin 2 → Fin 2))
    (E : FVec Ideal ⟨2, ![R, J]⟩ .f32) (We : FVec Ideal ⟨2, ![J, K]⟩ .f32) (be : FVec Ideal ⟨1, ![K]⟩ .f32)
    (S D : FVec Ideal ⟨2, ![R, K]⟩ .f32) (Wc : FVec Ideal ⟨2, ![K, C]⟩ .f32) (bc : FVec Ideal ⟨1, ![C]⟩ .f32) :
    addf (Host.dotGeneral d2 none
        (mulf (addf (addf S D)
            (maximumf (addf (Host.dotGeneral d1 none E We)
                (broadcastInDim ⟨2, ![R, K]⟩ ![0, 1] hK2 (broadcastInDim ⟨2, ![1, K]⟩ ![1] hK1 be)))
              (broadcastInDim ⟨2, ![R, K]⟩ ![] hK0 (constant (F := Ideal) ⟨0, ![]⟩ .f32 0x00000000#32))))
          (broadcastInDim ⟨2, ![R, K]⟩ ![] hK0 (constant (F := Ideal) ⟨0, ![]⟩ .f32 0x3EAAAAAB#32))) Wc)
      (broadcastInDim ⟨2, ![R, C]⟩ ![0, 1] hC2 (broadcastInDim ⟨2, ![1, C]⟩ ![1] hC1 bc))
      = edgeArr E We (fun q => be (ix1 q)) S D Wc (fun q => bc (ix1 q)) := by
  funext i
  obtain ⟨r, c, rfl⟩ : ∃ (r : Fin R) (c : Fin C), i = ix2 r c := ⟨i 0, i 1, eq_ix2 i⟩
  exact host_edge_apply d1 h1 h2 h3 h4 h5 h6 d2 g1 g2 g3 g4 g5 g6 hK1 hK2 hK0 hC1 hC2 E We be S D Wc bc r c

end Cert.EdgeGnn

end
-- ==== Proof.Region0.lean ====
/-
  Region 0 (the node stage): what the array it writes holds after the region, as one function of the arrays it reads.
-/
import proofs.«135330_j14267881357876_1_alg».proof.Proof.Gen.KernelIdeal.Frame
import proofs.«135330_j14267881357876_1_alg».proof.Proof.Spec
import Idealize.ShloMosaic.Lib.Pipeline.Value

set_option maxRecDepth 16384

noncomputable section

namespace Cert.KernelIdeal.Hand

open Cert.KernelIdeal Cert.KernelIdeal.Gen Cert.EdgeGnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = nodeRow x1 (fun q => x2 (ix2 (0 : Fin 1) q)) (rowOf x0 p) q := by
  unfold k0_pay1
  exact kernel_node_apply dot_S5000x128_S128x128_S5000x128_1_0_0_1_n_n rfl rfl rfl rfl rfl rfl _ _ _ x0 x1 x2 p q

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def G0 (c : Dev nD) : Buf (Elt Ideal) ((c : Thread nD τ).loc main_v5) :=
  nodeArr (V c main_arg0) (V c main_arg3) (fun q => V c main_v4 (ix2 (0 : Fin 1) q))

/-- Window 1's block at any point is the whole weight array. -/
theorem blk0_1 (c : Dev nD) (t : Fin cfg0.N) : (iblk0 V c 1 t : Vec Ideal S128x128 .f32) = V c main_arg3 := by
  obtain ⟨-, -, e10, e11, -⟩ := idx0 t
  funext x
  unfold iblk0
  rw [View.read_apply]
  show V c main_arg3 _ = V c main_arg3 x
  congr 1
  funext a; apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- Window 2's block at any point is the whole bias row. -/
theorem blk0_2 (c : Dev nD) (t : Fin cfg0.N) : (iblk0 V c 2 t : Vec Ideal S1x128 .f32) = V c main_v4 := by
  obtain ⟨-, -, -, -, e20, e21, -⟩ := idx0 t
  funext x
  unfold iblk0
  rw [View.read_apply]
  show V c main_v4 _ = V c main_v4 x
  congr 1
  funext a; apply Fin.ext
  match a with
  | ⟨0, _⟩ => show win0_2.index t (0 : Fin 2) * 1 + 1 * (x 0).val = (x 0).val; rw [e20]; omega
  | ⟨1, _⟩ => show win0_2.index t (1 : Fin 2) * 128 + 1 * (x 1).val = (x 1).val; rw [e21]; omega

/-- Row p of window 0's block at point t is row 5000·t + p of the feature array: the row the output block's entry
    (p, ·) sits in. -/
theorem blk0_0_row (c : Dev nD) (t : Fin cfg0.N) (y : S5000x128.Idx) (k : Fin 128) :
    (iblk0 V c 0 t : Vec Ideal S5000x128 .f32) (ix2 (y 0) k)
      = (V c main_arg0 : S50000x128.Idx → EReal) (ix2 ((((cfg0.win 3).blk t).view.emb y) 0) k) := by
  obtain ⟨e00, e01, -, -, -, -, e30, e31⟩ := idx0 t
  unfold iblk0
  rw [View.read_apply]
  show V c main_arg0 _ = V c main_arg0 _
  congr 1
  funext a; apply Fin.ext
  match a with
  | ⟨0, _⟩ => show win0_0.index t (0 : Fin 2) * 5000 + 1 * (y 0).val = win0_3.index t (0 : Fin 2) * 5000 + 1 * (y 0).val; rw [e00, e30]
  | ⟨1, _⟩ => show win0_0.index t (1 : Fin 2) * 128 + 1 * k.val = k.val; rw [e01]; omega

theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  funext y
  obtain ⟨-, -, -, -, -, -, e30, e31⟩ := idx0 t
  show k0_pay1 (iblk0 V c 0 t) (iblk0 V c 1 t) (iblk0 V c 2 t) ((cfg0.win 3).xinj (grid0.coords t) y)
    = G0 V c (((cfg0.win 3).blk t).view.emb y)
  refine (congrArg (k0_pay1 (F := Ideal) (iblk0 V c 0 t) (iblk0 V c 1 t) (iblk0 V c 2 t)) (eq_ix2 _)).trans ?_
  refine (pay0_apply _ _ _ _ _).trans ?_
  unfold G0
  refine Eq.trans ?_ (congrArg (nodeArr (V c main_arg0) (V c main_arg3) (fun q => V c main_v4 (ix2 (0 : Fin 1) q))) (eq_ix2 _)).symm
  show nodeRow (iblk0 V c 1 t) (fun q => iblk0 V c 2 t (ix2 (0 : Fin 1) q)) (rowOf (iblk0 V c 0 t) ((cfg0.win 3).xinj (grid0.coords t) y 0))
      ((cfg0.win 3).xinj (grid0.coords t) y 1)
    = nodeRow (V c main_arg3) (fun q => V c main_v4 (ix2 (0 : Fin 1) q))
        (rowOf (V c main_arg0) ((((cfg0.win 3).blk t).view.emb y) 0)) ((((cfg0.win 3).blk t).view.emb y) 1)
  refine nodeRow_congr (blk0_1 V c t) (funext fun q => congrFun (blk0_2 V c t) _) (funext fun k => blk0_0_row V c t y k) (Fin.ext ?_)
  show (y 1).val = win0_3.index t (1 : Fin 2) * 128 + 1 * (y 1).val
  rw [e31]; omega

/-- Every entry of the node array is in some point's block: row r is in block r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  refine ⟨⟨(i 0).val / 5000, ht⟩, flush0_3 _, ?_⟩
  obtain ⟨-, -, -, -, -, -, e30, e31⟩ := idx0 ⟨(i 0).val / 5000, ht⟩
  show i ∈ ((View.whole main_v5).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- After region 0 the node array holds the node stage of the arrays the region was entered with. -/
theorem final0 (c : Dev nD) : (dat0 V c).arrAt 3 cfg0.N = G0 V c :=
  (dat0 V c).arrAt_eq_of_cover 3 (G0 V c) (fun t _ => flushed0 V c t) (cover0)

end Cert.KernelIdeal.Hand

end
-- ==== Proof.Region1.lean ====
/-
  Region 1 (the combine stage): what the array it writes holds after the region, as one function of the arrays it reads.
-/
import proofs.«135330_j14267881357876_1_alg».proof.Proof.Region0

set_option maxRecDepth 16384

noncomputable section

namespace Cert.KernelIdeal.Hand

open Cert.KernelIdeal Cert.KernelIdeal.Gen Cert.EdgeGnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The combine stage of the arrays region 1 is entered with: neighbour sums, the neighbour counts as a column, node rows. -/
def G1 (c : Dev nD) : Buf (Elt Ideal) ((c : Thread nD τ).loc main_v22) :=
  combineArr (V c main_v15) (fun r => V c main_v20 (ix2 r (0 : Fin 1))) (V c main_v5) (V c main_arg7)
    (fun q => V c main_v21 (ix2 (0 : Fin 1) q)) (V c main_arg9)

/-- The body's payload at an entry: the combine stage of row p of the tile, the count read from the column's row p. -/
theorem pay1_apply (n : Vec Ideal S5000x1 .f32) (A : Vec Ideal S5000x128 .f32) (Wl : Vec Ideal S128x128 .f32)
    (b : Vec Ideal S1x128 .f32) (H : Vec Ideal S5000x128 .f32) (Wr : Vec Ideal S128x128 .f32)
    (p : Fin 5000) (q : Fin 128) :
    k1_pay1 (F := Ideal) n A Wl b H Wr (ix2 p q)
      = combineRow Wl (fun q => b (ix2 (0 : Fin 1) q)) Wr (rowOf A p) (n (ix2 p (0 : Fin 1))) (rowOf H p) q := by
  unfold k1_pay1
  exact kernel_combine_apply dot_S5000x128_S128x128_S5000x128_1_0_0_1_n_n rfl rfl rfl rfl rfl rfl
    dot_S5000x128_S128x128_S5000x128_1_0_0_1_n_n rfl rfl rfl rfl rfl rfl _ _ _ _ _ _ _ A n H Wl b Wr p q

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 3's block at any point is the whole left weight array. -/
theorem blk1_3 (c : Dev nD) (t : Fin cfg1.N) : (iblk1 V c 3 t : Vec Ideal S128x128 .f32) = V c main_arg7 := by
  obtain ⟨-, -, -, -, -, -, e30, e31, -⟩ := idx1 t
  funext x
  unfold iblk1
  rw [View.read_apply]
  show V c main_arg7 _ = V c main_arg7 x
  congr 1
  funext a; apply Fin.ext
  match a with
  | ⟨0, _⟩ => show win1_3.index t (0 : Fin 2) * 128 + 1 * (x 0).val = (x 0).val; rw [e30]; omega
  | ⟨1, _⟩ => show win1_3.index t (1 : Fin 2) * 128 + 1 * (x 1).val = (x 1).val; rw [e31]; omega

/-- Window 4's block at any point is the whole bias row. -/
theorem blk1_4 (c : Dev nD) (t : Fin cfg1.N) : (iblk1 V c 4 t : Vec Ideal S1x128 .f32) = V c main_v21 := by
  obtain ⟨-, -, -, -, -, -, -, -, e40, e41, -⟩ := idx1 t
  funext x
  unfold iblk1
  rw [View.read_apply]
  show V c main_v21 _ = V c main_v21 x
  congr 1
  funext a; apply Fin.ext
  match a with
  | ⟨0, _⟩ => show win1_4.index t (0 : Fin 2) * 1 + 1 * (x 0).val = (x 0).val; rw [e40]; omega
  | ⟨1, _⟩ => show win1_4.index t (1 : Fin 2) * 128 + 1 * (x 1).val = (x 1).val; rw [e41]; omega

/-- Window 5's block at any point is the whole right weight array. -/
theorem blk1_5 (c : Dev nD) (t : Fin cfg1.N) : (iblk1 V c 5 t : Vec Ideal S128x128 .f32) = V c main_arg9 := by
  obtain ⟨-, -, -, -, -, -, -, -, -, -, e50, e51, -⟩ := idx1 t
  funext x
  unfold iblk1
  rw [View.read_apply]
  show V c main_arg9 _ = V c main_arg9 x
  congr 1
  funext a; apply Fin.ext
  match a with
  | ⟨0, _⟩ => show win1_5.index t (0 : Fin 2) * 128 + 1 * (x 0).val = (x 0).val; rw [e50]; omega
  | ⟨1, _⟩ => show win1_5.index t (1 : Fin 2) * 128 + 1 * (x 1).val = (x 1).val; rw [e51]; omega

/-- Row p of window 0's block at point t is row 5000·t + p of the neighbour-sum array: the row the output block's
    entry (p, ·) sits in. -/
theorem blk1_0_row (c : Dev nD) (t : Fin cfg1.N) (y : S5000x128.Idx) (k : Fin 128) :
    (iblk1 V c 0 t : Vec Ideal S5000x128 .f32) (ix2 (y 0) k)
      = (V c main_v15 : S50000x128.Idx → EReal) (ix2 ((((cfg1.win 6).blk t).view.emb y) 0) k) := by
  obtain ⟨e00, e01, -, -, -, -, -, -, -, -, -, -, e60, e61⟩ := idx1 t
  unfold iblk1
  rw [View.read_apply]
  show V c main_v15 _ = V c main_v15 _
  congr 1
  funext a; apply Fin.ext
  match a with
  | ⟨0, _⟩ => show win1_0.index t (0 : Fin 2) * 5000 + 1 * (y 0).val = win1_6.index t (0 : Fin 2) * 5000 + 1 * (y 0).val; rw [e00, e60]
  | ⟨1, _⟩ => show win1_0.index t (1 : Fin 2) * 128 + 1 * k.val = k.val; rw [e01]; omega

/-- Row p of window 2's block at point t is row 5000·t + p of the node array. -/
theorem blk1_2_row (c : Dev nD) (t : Fin cfg1.N) (y : S5000x128.Idx) (k : Fin 128) :
    (iblk1 V c 2 t : Vec Ideal S5000x128 .f32) (ix2 (y 0) k)
      = (V c main_v5 : S50000x128.Idx → EReal) (ix2 ((((cfg1.win 6).blk t).view.emb y) 0) k) := by
  obtain ⟨-, -, -, -, e20, e21, -, -, -, -, -, -, e60, e61⟩ := idx1 t
  unfold iblk1
  rw [View.read_apply]
  show V c main_v5 _ = V c main_v5 _
  congr 1
  funext a; apply Fin.ext
  match a with
  | ⟨0, _⟩ => show win1_2.index t (0 : Fin 2) * 5000 + 1 * (y 0).val = win1_6.index t (0 : Fin 2) * 5000 + 1 * (y 0).val; rw [e20, e60]
  | ⟨1, _⟩ => show win1_2.index t (1 : Fin 2) * 128 + 1 * k.val = k.val; rw [e21]; omega

/-- Entry (p, 0) of the count column's block at point t is the count of row 5000·t + p. -/
theorem blk1_1_cnt (c : Dev nD) (t : Fin cfg1.N) (y : S5000x128.Idx) :
    (iblk1 V c 1 t : Vec Ideal S5000x1 .f32) (ix2 (y 0) (0 : Fin 1))
      = (V c main_v20 : S50000x1.Idx → EReal) (ix2 ((((cfg1.win 6).blk t).view.emb y) 0) (0 : Fin 1)) := by
  obtain ⟨-, -, e10, e11, -, -, -, -, -, -, -, -, e60, e61⟩ := idx1 t
  unfold iblk1
  rw [View.read_apply]
  show V c main_v20 _ = V c main_v20 _
  congr 1
  funext a; apply Fin.ext
  match a with
  | ⟨0, _⟩ => show win1_1.index t (0 : Fin 2) * 5000 + 1 * (y 0).val = win1_6.index t (0 : Fin 2) * 5000 + 1 * (y 0).val; rw [e10, e60]
  | ⟨1, _⟩ => show win1_1.index t (1 : Fin 2) * 1 + 1 * (0 : Fin 1).val = (0 : Fin 1).val; rw [e11]; rfl

theorem flushed1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S1x128) hz2]
  funext y
  obtain ⟨-, -, -, -, -, -, -, -, -, -, -, -, e60, e61⟩ := idx1 t
  show k1_pay1 (iblk1 V c 1 t) (iblk1 V c 0 t) (iblk1 V c 3 t) (iblk1 V c 4 t) (iblk1 V c 2 t) (iblk1 V c 5 t)
      ((cfg1.win 6).xinj (grid1.coords t) y)
    = G1 V c (((cfg1.win 6).blk t).view.emb y)
  refine (congrArg (k1_pay1 (F := Ideal) (iblk1 V c 1 t) (iblk1 V c 0 t) (iblk1 V c 3 t) (iblk1 V c 4 t) (iblk1 V c 2 t)
    (iblk1 V c 5 t)) (eq_ix2 _)).trans ?_
  refine (pay1_apply _ _ _ _ _ _ _ _).trans ?_
  unfold G1
  refine Eq.trans ?_ (congrArg (combineArr (V c main_v15) (fun r => V c main_v20 (ix2 r (0 : Fin 1))) (V c main_v5)
    (V c main_arg7) (fun q => V c main_v21 (ix2 (0 : Fin 1) q)) (V c main_arg9)) (eq_ix2 _)).symm
  show combineRow (iblk1 V c 3 t) (fun q => iblk1 V c 4 t (ix2 (0 : Fin 1) q)) (iblk1 V c 5 t)
      (rowOf (iblk1 V c 0 t) ((cfg1.win 6).xinj (grid1.coords t) y 0))
      (iblk1 V c 1 t (ix2 ((cfg1.win 6).xinj (grid1.coords t) y 0) (0 : Fin 1)))
      (rowOf (iblk1 V c 2 t) ((cfg1.win 6).xinj (grid1.coords t) y 0))
      ((cfg1.win 6).xinj (grid1.coords t) y 1)
    = combineRow (V c main_arg7) (fun q => V c main_v21 (ix2 (0 : Fin 1) q)) (V c main_arg9)
        (rowOf (V c main_v15) ((((cfg1.win 6).blk t).view.emb y) 0))
        (V c main_v20 (ix2 ((((cfg1.win 6).blk t).view.emb y) 0) (0 : Fin 1)))
        (rowOf (V c main_v5) ((((cfg1.win 6).blk t).view.emb y) 0)) ((((cfg1.win 6).blk t).view.emb y) 1)
  refine combineRow_congr (blk1_3 V c t) (funext fun q => congrFun (blk1_4 V c t) _) (blk1_5 V c t)
    (funext fun k => blk1_0_row V c t y k) (blk1_1_cnt V c t y) (funext fun k => blk1_2_row V c t y k) (Fin.ext ?_)
  show (y 1).val = win1_6.index t (1 : Fin 2) * 128 + 1 * (y 1).val
  rw [e61]; omega

/-- Every entry of the combined array is in some point's block: row r is in block r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have ht : (i 0).val / 5000 < cfg1.N := by rw [show cfg1.N = 10 from N_1]; omega
  refine ⟨⟨(i 0).val / 5000, ht⟩, flush1_6 _, ?_⟩
  obtain ⟨-, -, -, -, -, -, -, -, -, -, -, -, e60, e61⟩ := idx1 ⟨(i 0).val / 5000, ht⟩
  show i ∈ ((View.whole main_v22).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e61]; omega

/-- After region 1 the combined array holds the combine stage of the arrays the region was entered with. -/
theorem final1 (c : Dev nD) : (dat1 V c).arrAt 6 cfg1.N = G1 V c :=
  (dat1 V c).arrAt_eq_of_cover 6 (G1 V c) (fun t _ => flushed1 V c t) (cover1)

end Cert.KernelIdeal.Hand

end
-- ==== Proof.Region2.lean ====
/-
  Region 2 (the edge stage): what the array it writes holds after the region, as one function of the arrays it reads.
-/
import proofs.«135330_j14267881357876_1_alg».proof.Proof.Region0

set_option maxRecDepth 16384

noncomputable section

namespace Cert.KernelIdeal.Hand

open Cert.KernelIdeal Cert.KernelIdeal.Gen Cert.EdgeGnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The edge stage of the arrays region 2 is entered with. -/
def G2 (c : Dev nD) : Buf (Elt Ideal) ((c : Thread nD τ).loc main_v39) :=
  edgeArr (V c main_arg2) (V c main_arg5) (fun q => V c main_v37 (ix2 (0 : Fin 1) q)) (V c main_v29) (V c main_v36)
    (V c main_arg10) (fun q => V c main_v38 (ix2 (0 : Fin 1) q))

theorem pay2_apply (x0 : Vec Ideal S5000x64 .f32) (x1 : Vec Ideal S64x128 .f32) (x2 : Vec Ideal S1x128 .f32)
    (x3 x4 : Vec Ideal S5000x128 .f32) (x5 : Vec Ideal S128x2 .f32) (x6 : Vec Ideal S1x2 .f32)
    (p : Fin 5000) (q : Fin 2) :
    k2_pay1 (F := Ideal) x0 x1 x2 x3 x4 x5 x6 (ix2 p q)
      = edgeRow x1 (fun q => x2 (ix2 (0 : Fin 1) q)) x5 (fun q => x6 (ix2 (0 : Fin 1) q))
          (rowOf x0 p) (rowOf x3 p) (rowOf x4 p) q := by
  unfold k2_pay1
  exact kernel_edge_apply dot_S5000x64_S64x128_S5000x128_1_0_0_1_n_n rfl rfl rfl rfl rfl rfl
    dot_S5000x128_S128x2_S5000x2_1_0_0_1_n_n rfl rfl rfl rfl rfl rfl _ _ _ _ _ _ x0 x1 x2 x3 x4 x5 x6 p q

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 1's block at any point is the whole edge weight array. -/
theorem blk2_1 (c : Dev nD) (t : Fin cfg2.N) : (iblk2 V c 1 t : Vec Ideal S64x128 .f32) = V c main_arg5 := by
  obtain ⟨e00, e01, e10, e11, e20, e21, e30, e31, e40, e41, e50, e51, e60, e61, e70, e71⟩ := idx2 t
  funext x
  unfold iblk2
  rw [View.read_apply]
  show V c main_arg5 _ = V c main_arg5 x
  congr 1
  funext a; apply Fin.ext
  match a with
  | ⟨0, _⟩ => show win2_1.index t (0 : Fin 2) * 64 + 1 * (x 0).val = (x 0).val; rw [e10]; omega
  | ⟨1, _⟩ => show win2_1.index t (1 : Fin 2) * 128 + 1 * (x 1).val = (x 1).val; rw [e11]; omega

/-- Window 2's block at any point is the whole edge bias row. -/
theorem blk2_2 (c : Dev nD) (t : Fin cfg2.N) : (iblk2 V c 2 t : Vec Ideal S1x128 .f32) = V c main_v37 := by
  obtain ⟨e00, e01, e10, e11, e20, e21, e30, e31, e40, e41, e50, e51, e60, e61, e70, e71⟩ := idx2 t
  funext x
  unfold iblk2
  rw [View.read_apply]
  show V c main_v37 _ = V c main_v37 x
  congr 1
  funext a; apply Fin.ext
  match a with
  | ⟨0, _⟩ => show win2_2.index t (0 : Fin 2) * 1 + 1 * (x 0).val = (x 0).val; rw [e20]; omega
  | ⟨1, _⟩ => show win2_2.index t (1 : Fin 2) * 128 + 1 * (x 1).val = (x 1).val; rw [e21]; omega

/-- Window 5's block at any point is the whole scoring weight array. -/
theorem blk2_5 (c : Dev nD) (t : Fin cfg2.N) : (iblk2 V c 5 t : Vec Ideal S128x2 .f32) = V c main_arg10 := by
  obtain ⟨e00, e01, e10, e11, e20, e21, e30, e31, e40, e41, e50, e51, e60, e61, e70, e71⟩ := idx2 t
  funext x
  unfold iblk2
  rw [View.read_apply]
  show V c main_arg10 _ = V c main_arg10 x
  congr 1
  funext a; apply Fin.ext
  match a with
  | ⟨0, _⟩ => show win2_5.index t (0 : Fin 2) * 128 + 1 * (x 0).val = (x 0).val; rw [e50]; omega
  | ⟨1, _⟩ => show win2_5.index t (1 : Fin 2) * 2 + 1 * (x 1).val = (x 1).val; rw [e51]; omega

/-- Window 6's block at any point is the whole scoring bias row. -/
theorem blk2_6 (c : Dev nD) (t : Fin cfg2.N) : (iblk2 V c 6 t : Vec Ideal S1x2 .f32) = V c main_v38 := by
  obtain ⟨e00, e01, e10, e11, e20, e21, e30, e31, e40, e41, e50, e51, e60, e61, e70, e71⟩ := idx2 t
  funext x
  unfold iblk2
  rw [View.read_apply]
  show V c main_v38 _ = V c main_v38 x
  congr 1
  funext a; apply Fin.ext
  match a with
  | ⟨0, _⟩ => show win2_6.index t (0 : Fin 2) * 1 + 1 * (x 0).val = (x 0).val; rw [e60]; omega
  | ⟨1, _⟩ => show win2_6.index t (1 : Fin 2) * 2 + 1 * (x 1).val = (x 1).val; rw [e61]; omega

/-- Row p of window 0's block at point t is row 5000·t + p of the edge attribute array: the row the output block's entry
    (p, ·) sits in. -/
theorem blk2_0_row (c : Dev nD) (t : Fin cfg2.N) (y : S5000x2.Idx) (k : Fin 64) :
    (iblk2 V c 0 t : Vec Ideal S5000x64 .f32) (ix2 (y 0) k)
      = (V c main_arg2 : S800000x64.Idx → EReal) (ix2 ((((cfg2.win 7).blk t).view.emb y) 0) k) := by
  obtain ⟨e00, e01, e10, e11, e20, e21, e30, e31, e40, e41, e50, e51, e60, e61, e70, e71⟩ := idx2 t
  unfold iblk2
  rw [View.read_apply]
  show V c main_arg2 _ = V c main_arg2 _
  congr 1
  funext a; apply Fin.ext
  match a with
  | ⟨0, _⟩ => show win2_0.index t (0 : Fin 2) * 5000 + 1 * (y 0).val = win2_7.index t (0 : Fin 2) * 5000 + 1 * (y 0).val; rw [e00, e70]
  | ⟨1, _⟩ => show win2_0.index t (1 : Fin 2) * 64 + 1 * k.val = k.val; rw [e01]; omega

/-- Row p of window 3's block at point t is row 5000·t + p of the first end point array. -/
theorem blk2_3_row (c : Dev nD) (t : Fin cfg2.N) (y : S5000x2.Idx) (k : Fin 128) :
    (iblk2 V c 3 t : Vec Ideal S5000x128 .f32) (ix2 (y 0) k)
      = (V c main_v29 : S800000x128.Idx → EReal) (ix2 ((((cfg2.win 7).blk t).view.emb y) 0) k) := by
  obtain ⟨e00, e01, e10, e11, e20, e21, e30, e31, e40, e41, e50, e51, e60, e61, e70, e71⟩ := idx2 t
  unfold iblk2
  rw [View.read_apply]
  show V c main_v29 _ = V c main_v29 _
  congr 1
  funext a; apply Fin.ext
  match a with
  | ⟨0, _⟩ => show win2_3.index t (0 : Fin 2) * 5000 + 1 * (y 0).val = win2_7.index t (0 : Fin 2) * 5000 + 1 * (y 0).val; rw [e30, e70]
  | ⟨1, _⟩ => show win2_3.index t (1 : Fin 2) * 128 + 1 * k.val = k.val; rw [e31]; omega

/-- Row p of window 4's block at point t is row 5000·t + p of the second end point array. -/
theorem blk2_4_row (c : Dev nD) (t : Fin cfg2.N) (y : S5000x2.Idx) (k : Fin 128) :
    (iblk2 V c 4 t : Vec Ideal S5000x128 .f32) (ix2 (y 0) k)
      = (V c main_v36 : S800000x128.Idx → EReal) (ix2 ((((cfg2.win 7).blk t).view.emb y) 0) k) := by
  obtain ⟨e00, e01, e10, e11, e20, e21, e30, e31, e40, e41, e50, e51, e60, e61, e70, e71⟩ := idx2 t
  unfold iblk2
  rw [View.read_apply]
  show V c main_v36 _ = V c main_v36 _
  congr 1
  funext a; apply Fin.ext
  match a with
  | ⟨0, _⟩ => show win2_4.index t (0 : Fin 2) * 5000 + 1 * (y 0).val = win2_7.index t (0 : Fin 2) * 5000 + 1 * (y 0).val; rw [e40, e70]
  | ⟨1, _⟩ => show win2_4.index t (1 : Fin 2) * 128 + 1 * k.val = k.val; rw [e41]; omega

theorem flushed2 (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero hz2]
  simp only [View.ld_unit_zero (S := S5000x64) hz2, View.ld_unit_zero (S := S64x128) hz2, View.ld_unit_zero (S := S1x128) hz2,
    View.ld_unit_zero (S := S5000x128) hz2, View.ld_unit_zero (S := S128x2) hz2, View.ld_unit_zero (S := S1x2) hz2]
  funext y
  obtain ⟨e00, e01, e10, e11, e20, e21, e30, e31, e40, e41, e50, e51, e60, e61, e70, e71⟩ := idx2 t
  show k2_pay1 (iblk2 V c 0 t) (iblk2 V c 1 t) (iblk2 V c 2 t) (iblk2 V c 3 t) (iblk2 V c 4 t) (iblk2 V c 5 t) (iblk2 V c 6 t)
      ((cfg2.win 7).xinj (grid2.coords t) y)
    = G2 V c (((cfg2.win 7).blk t).view.emb y)
  refine (congrArg (k2_pay1 (F := Ideal) (iblk2 V c 0 t) (iblk2 V c 1 t) (iblk2 V c 2 t) (iblk2 V c 3 t) (iblk2 V c 4 t)
    (iblk2 V c 5 t) (iblk2 V c 6 t)) (eq_ix2 _)).trans ?_
  refine (pay2_apply _ _ _ _ _ _ _ _ _).trans ?_
  unfold G2
  refine Eq.trans ?_ (congrArg (edgeArr (V c main_arg2) (V c main_arg5) (fun q => V c main_v37 (ix2 (0 : Fin 1) q))
    (V c main_v29) (V c main_v36) (V c main_arg10) (fun q => V c main_v38 (ix2 (0 : Fin 1) q))) (eq_ix2 _)).symm
  show edgeRow (iblk2 V c 1 t) (fun q => iblk2 V c 2 t (ix2 (0 : Fin 1) q)) (iblk2 V c 5 t)
      (fun q => iblk2 V c 6 t (ix2 (0 : Fin 1) q))
      (rowOf (iblk2 V c 0 t) ((cfg2.win 7).xinj (grid2.coords t) y 0))
      (rowOf (iblk2 V c 3 t) ((cfg2.win 7).xinj (grid2.coords t) y 0))
      (rowOf (iblk2 V c 4 t) ((cfg2.win 7).xinj (grid2.coords t) y 0))
      ((cfg2.win 7).xinj (grid2.coords t) y 1)
    = edgeRow (V c main_arg5) (fun q => V c main_v37 (ix2 (0 : Fin 1) q)) (V c main_arg10)
        (fun q => V c main_v38 (ix2 (0 : Fin 1) q))
        (rowOf (V c main_arg2) ((((cfg2.win 7).blk t).view.emb y) 0))
        (rowOf (V c main_v29) ((((cfg2.win 7).blk t).view.emb y) 0))
        (rowOf (V c main_v36) ((((cfg2.win 7).blk t).view.emb y) 0))
        ((((cfg2.win 7).blk t).view.emb y) 1)
  refine edgeRow_congr (blk2_1 V c t) (funext fun q => congrFun (blk2_2 V c t) _) (blk2_5 V c t)
    (funext fun q => congrFun (blk2_6 V c t) _) (funext fun k => blk2_0_row V c t y k)
    (funext fun k => blk2_3_row V c t y k) (funext fun k => blk2_4_row V c t y k) (Fin.ext ?_)
  show (y 1).val = win2_7.index t (1 : Fin 2) * 2 + 1 * (y 1).val
  rw [e71]; omega

/-- Every entry of the score array is in some point's block: row r is in block r / 5000. -/
theorem cover2 (i : S800000x2.Idx) :
    ∃ t : Fin cfg2.N, (cfg2.win 7).flush t = true ∧ i ∈ ((cfg2.win 7).blk t).view.set := by
  have hi0 : (i 0).val < 800000 := (i 0).isLt
  have hi1 : (i 1).val < 2 := (i 1).isLt
  have ht : (i 0).val / 5000 < cfg2.N := by rw [show cfg2.N = 160 from N_2]; omega
  refine ⟨⟨(i 0).val / 5000, ht⟩, flush2_7 _, ?_⟩
  obtain ⟨e00, e01, e10, e11, e20, e21, e30, e31, e40, e41, e50, e51, e60, e61, e70, e71⟩ := idx2 ⟨(i 0).val / 5000, ht⟩
  show i ∈ ((View.whole main_v39).slice (win2_7.rect ⟨(i 0).val / 5000, ht⟩)).set
  rw [View.set_slice_whole, Rect.mem_set_unit]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win2_7.index ⟨(i 0).val / 5000, ht⟩ (1 : Fin 2) * 2 ≤ (i 1).val ∧ (i 1).val < win2_7.index ⟨(i 0).val / 5000, ht⟩ (1 : Fin 2) * 2 + 2
    rw [e71]; omega

/-- After region 2 the score array holds the edge stage of the arrays the region was entered with. -/
theorem final2 (c : Dev nD) : (dat2 V c).arrAt 7 cfg2.N = G2 V c :=
  (dat2 V c).arrAt_eq_of_cover 7 (G2 V c) (fun t _ => flushed2 V c t) (cover2)

end Cert.KernelIdeal.Hand

end
-- ==== Proof.Final.lean ====
/-
  The whole network as one function of the twelve argument arrays.

  The node stage gives every node a row  H . Each edge carries its source's row to its destination, where the rows are
  summed (`aggOf`) beside a count of the arriving edges (`cntOf`); a negative endpoint number is read from the end of
  the node range before rows are fetched (`wrapCol`), as array indexing does. The combine stage turns sums, counts and
  own rows into the rows  HC ; the edge stage scores every edge from its attribute row and the  HC  rows of its two
  endpoints. The three dense stages are the row functions of the specification; fetching rows by endpoint and summing
  by destination are the host's own operations, named here once and never opened.
-/
import proofs.«135330_j14267881357876_1_alg».proof.Proof.Gen.KernelIdeal
import proofs.«135330_j14267881357876_1_alg».proof.Proof.Spec

noncomputable section

namespace Cert.KernelIdeal.Hand

open Cert.KernelIdeal Cert.KernelIdeal.Facts₀ Cert.EdgeGnn
open Idealize.ShloMosaic Idealize.ShloMosaic.ValueIdx

/-- The edges' source numbers: row 0 of the endpoint table. -/
def srcOf (a1 : (⟨S2x800000, .i32⟩ : BufTy).Contents (Elt Ideal)) : (⟨S800000, .i32⟩ : BufTy).Contents (Elt Ideal) :=
  shapeCast _ (extractStridedSlice S1x800000 ![0, 0] a1 slices_S2x800000_S1x800000_0_0) shapeCasts_S1x800000_S800000

/-- The edges' destination numbers: row 1 of the endpoint table. -/
def dstOf (a1 : (⟨S2x800000, .i32⟩ : BufTy).Contents (Elt Ideal)) : (⟨S800000, .i32⟩ : BufTy).Contents (Elt Ideal) :=
  shapeCast _ (extractStridedSlice S1x800000 ![1, 0] a1 slices_S2x800000_S1x800000_1_0) shapeCasts_S1x800000_S800000

/-- A vector of node numbers as a column of row numbers to fetch: a negative number has the node count added. -/
def wrapCol (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of a node array fetched at a column of row numbers. -/
def fetch (X : (⟨S50000x128, .f32⟩ : BufTy).Contents (Elt Ideal)) (ids : (⟨S800000x1, .i32⟩ : BufTy).Contents (Elt Ideal)) :
    (⟨S800000x128, .f32⟩ : BufTy).Contents (Elt Ideal) :=
  Host.gather gather_S50000x128_S800000x1_S800000x128_1_0_n_n_0_1_1128 X ids

/-- Every node's sum of the rows of  H  its arriving edges carry from their sources. -/
def aggOf (H : (⟨S50000x128, .f32⟩ : BufTy).Contents (Elt Ideal)) (a1 : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstOf a1))
    (fetch H (wrapCol (srcOf a1)))

/-- Every node's number of arriving edges. -/
def cntOf (a1 : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstOf a1))
    (broadcastInDim S800000 ![] bcast_S_S800000 (constant (F := Ideal) S_ .f32 0x3F800000#32))

/-- The node rows  H . -/
def hOf (a0 : (⟨S50000x128, .f32⟩ : BufTy).Contents (Elt Ideal)) (a3 : (⟨S128x128, .f32⟩ : BufTy).Contents (Elt Ideal))
    (a4 : (⟨S128, .f32⟩ : BufTy).Contents (Elt Ideal)) : (⟨S50000x128, .f32⟩ : BufTy).Contents (Elt Ideal) :=
  nodeArr a0 a3 (fun q => a4 (ix1 q))

/-- The combined rows  HC  from the node rows  H . -/
def hcOf (H : (⟨S50000x128, .f32⟩ : BufTy).Contents (Elt Ideal)) (a1 : (⟨S2x800000, .i32⟩ : BufTy).Contents (Elt Ideal))
    (a7 : (⟨S128x128, .f32⟩ : BufTy).Contents (Elt Ideal)) (a8 : (⟨S128, .f32⟩ : BufTy).Contents (Elt Ideal))
    (a9 : (⟨S128x128, .f32⟩ : BufTy).Contents (Elt Ideal)) : (⟨S50000x128, .f32⟩ : BufTy).Contents (Elt Ideal) :=
  combineArr (aggOf H a1) (fun r => cntOf a1 (ix1 r)) H a7 (fun q => a8 (ix1 q)) a9

/-- The edge scores from the combined rows  HC . -/
def scoreOf (HC : (⟨S50000x128, .f32⟩ : BufTy).Contents (Elt Ideal)) (a1 : (⟨S2x800000, .i32⟩ : BufTy).Contents (Elt Ideal))
    (a2 : (⟨S800000x64, .f32⟩ : BufTy).Contents (Elt Ideal)) (a5 : (⟨S64x128, .f32⟩ : BufTy).Contents (Elt Ideal))
    (a6 : (⟨S128, .f32⟩ : BufTy).Contents (Elt Ideal)) (a10 : (⟨S128x2, .f32⟩ : BufTy).Contents (Elt Ideal))
    (a11 : (⟨S2, .f32⟩ : BufTy).Contents (Elt Ideal)) : (⟨S800000x2, .f32⟩ : BufTy).Contents (Elt Ideal) :=
  edgeArr a2 a5 (fun q => a6 (ix1 q)) (fetch HC (wrapCol (srcOf a1))) (fetch HC (wrapCol (dstOf a1))) a10
    (fun q => a11 (ix1 q))

/-- The network: the edge scores as a function of the twelve arguments. -/
def outOf (a0 : (⟨S50000x128, .f32⟩ : BufTy).Contents (Elt Ideal)) (a1 : (⟨S2x800000, .i32⟩ : BufTy).Contents (Elt Ideal))
    (a2 : (⟨S800000x64, .f32⟩ : BufTy).Contents (Elt Ideal)) (a3 : (⟨S128x128, .f32⟩ : BufTy).Contents (Elt Ideal))
    (a4 : (⟨S128, .f32⟩ : BufTy).Contents (Elt Ideal)) (a5 : (⟨S64x128, .f32⟩ : BufTy).Contents (Elt Ideal))
    (a6 : (⟨S128, .f32⟩ : BufTy).Contents (Elt Ideal)) (a7 : (⟨S128x128, .f32⟩ : BufTy).Contents (Elt Ideal))
    (a8 : (⟨S128, .f32⟩ : BufTy).Contents (Elt Ideal)) (a9 : (⟨S128x128, .f32⟩ : BufTy).Contents (Elt Ideal))
    (a10 : (⟨S128x2, .f32⟩ : BufTy).Contents (Elt Ideal)) (a11 : (⟨S2, .f32⟩ : BufTy).Contents (Elt Ideal)) :
    (⟨S800000x2, .f32⟩ : BufTy).Contents (Elt Ideal) :=
  scoreOf (hcOf (hOf a0 a3 a4) a1 a7 a8 a9) a1 a2 a5 a6 a10 a11

end Cert.KernelIdeal.Hand

end
-- ==== Proof.KernelValue.lean ====
/-
  The kernel program's result, read back through its three regions and the host operations between them.
-/
import proofs.«135330_j14267881357876_1_alg».proof.Proof.Region0
import proofs.«135330_j14267881357876_1_alg».proof.Proof.Region1
import proofs.«135330_j14267881357876_1_alg».proof.Proof.Region2
import proofs.«135330_j14267881357876_1_alg».proof.Proof.Final
import Idealize.ShloMosaic.Lib.StableHlo.Run

set_option maxRecDepth 16384

noncomputable section

namespace Cert.KernelIdeal.Hand

open Cert.KernelIdeal Cert.KernelIdeal.Gen Cert.EdgeGnn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The three regions' results from the values of the arrays they read

Each region's result depends on the entry contents only through the arrays the region reads. -/

theorem G0_eq (V : (c : Dev nD) → (b : Ref sig .tc) → Buf (Elt Ideal) ((c : Thread nD τ).loc b)) (c : Dev nD)
    (x0 : (⟨S50000x128, .f32⟩ : BufTy).Contents (Elt Ideal)) (x3 : (⟨S128x128, .f32⟩ : BufTy).Contents (Elt Ideal))
    (x4 : (⟨S1x128, .f32⟩ : BufTy).Contents (Elt Ideal))
    (h0 : V c main_arg0 = x0) (h3 : V c main_arg3 = x3) (h4 : V c main_v4 = x4) :
    G0 V c = nodeArr x0 x3 (fun q => x4 (ix2 (0 : Fin 1) q)) := by
  subst h0 h3 h4; rfl

theorem G1_eq (V : (c : Dev nD) → (b : Ref sig .tc) → Buf (Elt Ideal) ((c : Thread nD τ).loc b)) (c : Dev nD)
    (x15 : (⟨S50000x128, .f32⟩ : BufTy).Contents (Elt Ideal)) (x20 : (⟨S50000x1, .f32⟩ : BufTy).Contents (Elt Ideal))
    (x5 : (⟨S50000x128, .f32⟩ : BufTy).Contents (Elt Ideal)) (x7 : (⟨S128x128, .f32⟩ : BufTy).Contents (Elt Ideal))
    (x21 : (⟨S1x128, .f32⟩ : BufTy).Contents (Elt Ideal)) (x9 : (⟨S128x128, .f32⟩ : BufTy).Contents (Elt Ideal))
    (h15 : V c main_v15 = x15) (h20 : V c main_v20 = x20) (h5 : V c main_v5 = x5) (h7 : V c main_arg7 = x7)
    (h21 : V c main_v21 = x21) (h9 : V c main_arg9 = x9) :
    G1 V c = combineArr x15 (fun r => x20 (ix2 r (0 : Fin 1))) x5 x7 (fun q => x21 (ix2 (0 : Fin 1) q)) x9 := by
  subst h15 h20 h5 h7 h21 h9; rfl

theorem G2_eq (V : (c : Dev nD) → (b : Ref sig .tc) → Buf (Elt Ideal) ((c : Thread nD τ).loc b)) (c : Dev nD)
    (x2 : (⟨S800000x64, .f32⟩ : BufTy).Contents (Elt Ideal)) (x5 : (⟨S64x128, .f32⟩ : BufTy).Contents (Elt Ideal))
    (x37 : (⟨S1x128, .f32⟩ : BufTy).Contents (Elt Ideal)) (x29 x36 : (⟨S800000x128, .f32⟩ : BufTy).Contents (Elt Ideal))
    (x10 : (⟨S128x2, .f32⟩ : BufTy).Contents (Elt Ideal)) (x38 : (⟨S1x2, .f32⟩ : BufTy).Contents (Elt Ideal))
    (h2 : V c main_arg2 = x2) (h5 : V c main_arg5 = x5) (h37 : V c main_v37 = x37) (h29 : V c main_v29 = x29)
    (h36 : V c main_v36 = x36) (h10 : V c main_arg10 = x10) (h38 : V c main_v38 = x38) :
    G2 V c = edgeArr x2 x5 (fun q => x37 (ix2 (0 : Fin 1) q)) x29 x36 x10 (fun q => x38 (ix2 (0 : Fin 1) q)) := by
  subst h2 h5 h37 h29 h36 h10 h38; rfl

/-! ## Before region 0: the first host stretch from the launch memory -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> try rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> try rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> try rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> try rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> try rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> try rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> try rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> try rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> try rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> try rfl
/-- The source numbers, the destination numbers and the node bias as a row, as the first stretch leaves them. -/
theorem W1_v1 (c : Dev nD) : W1 m ρ c (Proc.devRef .tc main_v1) = srcOf (m ((c : Thread nD τ).loc main_arg1)) := by
  show StableHlo.after hostOps0 (W0 m ρ c) (Proc.devRef .tc main_v1) = _
  after_results <;> try rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results <;> try rfl
theorem W1_v4 (c : Dev nD) : W1 m ρ c (Proc.devRef .tc main_v4)
    = shapeCast S1x128 (m ((c : Thread nD τ).loc main_arg4)) Facts₀.shapeCasts_S128_S1x128 := by
  show StableHlo.after hostOps0 (W0 m ρ c) (Proc.devRef .tc main_v4) = _
  after_results <;> try rfl

/-! ## After region 0 -/

/-- Region 0 leaves the node rows  H  of the arguments in its result array. -/
theorem W2_v5 (c : Dev nD) : W2 m ρ c (Proc.devRef .tc main_v5)
    = hOf (m ((c : Thread nD τ).loc main_arg0)) (m ((c : Thread nD τ).loc main_arg3)) (m ((c : Thread nD τ).loc main_arg4)) := by
  refine (W2_arr m ρ c 3).trans ((final0 (V1 m ρ) c).trans ?_)
  refine (G0_eq (V1 m ρ) c _ _ _ (W1_arg0 m ρ c) (W1_arg3 m ρ c) (W1_v4 m ρ c)).trans ?_
  exact congrArg (nodeArr _ _) (funext fun q => BiasRow.cast_row_apply _ _ q)

theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)

/-! ## Before region 1: the second host stretch -/

theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = _
  after_results <;> try rfl
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results <;> try rfl
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results <;> try rfl
theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  after_results <;> try rfl
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = _
  after_results <;> try rfl
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = _
  after_results <;> try rfl
theorem W3_arg11 (c : Dev nD) : W3 m ρ c (Proc.devRef .tc main_arg11) = m ((c : Thread nD τ).loc main_arg11) := by
  refine Eq.trans ?_ (W2_arg11 m ρ c)
  show StableHlo.after hostOps1 (W2 m ρ c) (Proc.devRef .tc main_arg11) = _
  after_results <;> try rfl
theorem W3_v1 (c : Dev nD) : W3 m ρ c (Proc.devRef .tc main_v1) = srcOf (m ((c : Thread nD τ).loc main_arg1)) := by
  refine Eq.trans ?_ (W2_v1 m ρ c)
  show StableHlo.after hostOps1 (W2 m ρ c) (Proc.devRef .tc main_v1) = _
  after_results <;> try rfl
theorem W3_v3 (c : Dev nD) : W3 m ρ c (Proc.devRef .tc main_v3) = dstOf (m ((c : Thread nD τ).loc main_arg1)) := by
  refine Eq.trans ?_ (W2_v3 m ρ c)
  show StableHlo.after hostOps1 (W2 m ρ c) (Proc.devRef .tc main_v3) = _
  after_results <;> try rfl
theorem W3_v5 (c : Dev nD) : W3 m ρ c (Proc.devRef .tc main_v5)
    = hOf (m ((c : Thread nD τ).loc main_arg0)) (m ((c : Thread nD τ).loc main_arg3)) (m ((c : Thread nD τ).loc main_arg4)) := by
  refine Eq.trans ?_ (W2_v5 m ρ c)
  show StableHlo.after hostOps1 (W2 m ρ c) (Proc.devRef .tc main_v5) = _
  after_results <;> try rfl
/-- The neighbour sums: the node rows fetched at the sources and summed by destination. -/
theorem W3_v15 (c : Dev nD) : W3 m ρ c (Proc.devRef .tc main_v15)
    = aggOf (hOf (m ((c : Thread nD τ).loc main_arg0)) (m ((c : Thread nD τ).loc main_arg3)) (m ((c : Thread nD τ).loc main_arg4)))
        (m ((c : Thread nD τ).loc main_arg1)) := by
  show StableHlo.after hostOps1 (W2 m ρ c) (Proc.devRef .tc main_v15) = _
  after_results
  rw [W2_v1, W2_v3, W2_v5]
  rfl
/-- The neighbour counts, as a column. -/
theorem W3_v20 (c : Dev nD) : W3 m ρ c (Proc.devRef .tc main_v20)
    = shapeCast S50000x1 (cntOf (m ((c : Thread nD τ).loc main_arg1))) Facts₀.shapeCasts_S50000_S50000x1 := by
  show StableHlo.after hostOps1 (W2 m ρ c) (Proc.devRef .tc main_v20) = _
  after_results
  rw [W2_v3]
  rfl
theorem W3_v21 (c : Dev nD) : W3 m ρ c (Proc.devRef .tc main_v21)
    = shapeCast S1x128 (m ((c : Thread nD τ).loc main_arg8)) Facts₀.shapeCasts_S128_S1x128 := by
  show StableHlo.after hostOps1 (W2 m ρ c) (Proc.devRef .tc main_v21) = _
  after_results
  rw [W2_arg8]
  rfl

/-! ## After region 1 -/

/-- Region 1 leaves the combined rows  HC  in its result array. -/
theorem W4_v22 (c : Dev nD) : W4 m ρ c (Proc.devRef .tc main_v22)
    = hcOf (hOf (m ((c : Thread nD τ).loc main_arg0)) (m ((c : Thread nD τ).loc main_arg3)) (m ((c : Thread nD τ).loc main_arg4)))
        (m ((c : Thread nD τ).loc main_arg1)) (m ((c : Thread nD τ).loc main_arg7)) (m ((c : Thread nD τ).loc main_arg8))
        (m ((c : Thread nD τ).loc main_arg9)) := by
  refine (W4_arr m ρ c 6).trans ((final1 (V3 m ρ) c).trans ?_)
  refine (G1_eq (V3 m ρ) c _ _ _ _ _ _ (W3_v15 m ρ c) (W3_v20 m ρ c) (W3_v5 m ρ c) (W3_arg7 m ρ c) (W3_v21 m ρ c)
    (W3_arg9 m ρ c)).trans ?_
  unfold hcOf
  refine congrArg₂ (fun n β => combineArr _ n _ _ β _) (funext fun r => ?_) (funext fun q => ?_)
  · exact LibKeepdimsColumn.shapeCast_a_a1_apply _ _ r 0
  · exact BiasRow.cast_row_apply _ _ q

theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)

/-! ## Before region 2: the third host stretch -/

theorem W5_arg2 (c : Dev nD) : W5 m ρ c (Proc.devRef .tc main_arg2) = m ((c : Thread nD τ).loc main_arg2) := by
  refine Eq.trans ?_ (W4_arg2 m ρ c)
  show StableHlo.after hostOps2 (W4 m ρ c) (Proc.devRef .tc main_arg2) = _
  after_results <;> try rfl
theorem W5_arg5 (c : Dev nD) : W5 m ρ c (Proc.devRef .tc main_arg5) = m ((c : Thread nD τ).loc main_arg5) := by
  refine Eq.trans ?_ (W4_arg5 m ρ c)
  show StableHlo.after hostOps2 (W4 m ρ c) (Proc.devRef .tc main_arg5) = _
  after_results <;> try rfl
theorem W5_arg10 (c : Dev nD) : W5 m ρ c (Proc.devRef .tc main_arg10) = m ((c : Thread nD τ).loc main_arg10) := by
  refine Eq.trans ?_ (W4_arg10 m ρ c)
  show StableHlo.after hostOps2 (W4 m ρ c) (Proc.devRef .tc main_arg10) = _
  after_results <;> try rfl
/-- The combined rows fetched at the edges' sources and at their destinations. -/
theorem W5_v29 (c : Dev nD) : W5 m ρ c (Proc.devRef .tc main_v29)
    = fetch (W4 m ρ c (Proc.devRef .tc main_v22)) (wrapCol (srcOf (m ((c : Thread nD τ).loc main_arg1)))) := by
  show StableHlo.after hostOps2 (W4 m ρ c) (Proc.devRef .tc main_v29) = _
  after_results
  rw [W4_v1]
  rfl
set_option maxHeartbeats 2000000 in
theorem W5_v36 (c : Dev nD) : W5 m ρ c (Proc.devRef .tc main_v36)
    = fetch (W4 m ρ c (Proc.devRef .tc main_v22)) (wrapCol (dstOf (m ((c : Thread nD τ).loc main_arg1)))) := by
  show StableHlo.after hostOps2 (W4 m ρ c) (Proc.devRef .tc main_v36) = _
  after_results
  rw [W4_v3]
  rfl
set_option maxHeartbeats 2000000 in
theorem W5_v37 (c : Dev nD) : W5 m ρ c (Proc.devRef .tc main_v37)
    = shapeCast S1x128 (m ((c : Thread nD τ).loc main_arg6)) Facts₀.shapeCasts_S128_S1x128 := by
  show StableHlo.after hostOps2 (W4 m ρ c) (Proc.devRef .tc main_v37) = _
  after_results
  rw [W4_arg6]
  rfl
set_option maxHeartbeats 2000000 in
theorem W5_v38 (c : Dev nD) : W5 m ρ c (Proc.devRef .tc main_v38)
    = shapeCast S1x2 (m ((c : Thread nD τ).loc main_arg11)) Facts₀.shapeCasts_S2_S1x2 := by
  show StableHlo.after hostOps2 (W4 m ρ c) (Proc.devRef .tc main_v38) = _
  after_results
  rw [W4_arg11]
  rfl

/-! ## After region 2: the result -/

/-- The result buffer ends at the network function of the twelve arguments. -/
theorem kernel_value (c : Dev nD) : W6 m ρ c (Proc.devRef .tc main_v39)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W6_arr m ρ c 7).trans ((final2 (V5 m ρ) c).trans ?_)
  refine (G2_eq (V5 m ρ) c _ _ _ _ _ _ _ (W5_arg2 m ρ c) (W5_arg5 m ρ c) (W5_v37 m ρ c) (W5_v29 m ρ c) (W5_v36 m ρ c)
    (W5_arg10 m ρ c) (W5_v38 m ρ c)).trans ?_
  rw [W4_v22]
  unfold outOf scoreOf
  refine congrArg₂ (fun βe βc => edgeArr _ _ βe _ _ _ βc) (funext fun q => ?_) (funext fun q => ?_)
  · exact BiasRow.cast_row_apply _ _ q
  · exact BiasRow.cast_row_apply _ _ q

end Cert.KernelIdeal.Hand

end
-- ==== Proof.RefValue.lean ====
/-
  The reference's result is the network function of its arguments.
-/
import proofs.«135330_j14267881357876_1_alg».proof.Proof.Gen.ReferenceIdeal.Read
import proofs.«135330_j14267881357876_1_alg».proof.Proof.Final

set_option maxRecDepth 16384

noncomputable section

namespace Cert.ReferenceIdeal.RefValue

open Idealize.ShloMosaic Idealize.ShloMosaic.TcCoe Idealize.ShloMosaic.ValueIdx Idealize.SL.Sem
open Cert.EdgeGnn

open Cert.ReferenceIdeal Cert.ReferenceIdeal.Read
open Cert.KernelIdeal.Hand (srcOf dstOf wrapCol fetch aggOf cntOf hOf hcOf scoreOf outOf)

/-! ## The host's own operations, named once on either side -/

/-- Fetching rows by a column of row numbers is the same operation on either side. -/
theorem fetch_ref (X : (⟨S50000x128, .f32⟩ : BufTy).Contents (Elt Ideal))
    (ids : (⟨S800000x1, .i32⟩ : BufTy).Contents (Elt Ideal)) :
    Host.gather gather_S50000x128_S800000x1_S800000x128_1_0_n_n_0_1_1128 X ids = fetch X ids := rfl

/-- Row 0 of the endpoint table, as a vector. -/
theorem src_ref (x1 : (⟨S2x800000, .i32⟩ : BufTy).Contents (Elt Ideal)) :
    val_main_v11 (F := Ideal) x1 = srcOf x1 := rfl

/-- Row 1 of the endpoint table, as a vector. -/
theorem dst_ref (x1 : (⟨S2x800000, .i32⟩ : BufTy).Contents (Elt Ideal)) :
    val_main_v13 (F := Ideal) x1 = dstOf x1 := rfl

/-- The sources' column of row numbers: a negative number has the node count added. -/
theorem srcCol_ref (x1 : (⟨S2x800000, .i32⟩ : BufTy).Contents (Elt Ideal)) :
    val_main_v44 (F := Ideal) x1 = wrapCol (srcOf x1) := by
  unfold val_main_v44 val_main_v43 val_main_v40 val_main_v42 val_main_v39 val_main_v41 val_main_c_4 val_main_c_5
  rw [src_ref]
  rfl

/-- The same column as the neighbour sums read it. -/
theorem srcCol_ref' (x1 : (⟨S2x800000, .i32⟩ : BufTy).Contents (Elt Ideal)) :
    val_main_v19 (F := Ideal) x1 = wrapCol (srcOf x1) := by
  unfold val_main_v19 val_main_v18 val_main_v15 val_main_v17 val_main_v14 val_main_v16 val_main_c val_main_c_0
  rw [src_ref]
  rfl

/-- The destinations' column of row numbers. -/
theorem dstCol_ref (x1 : (⟨S2x800000, .i32⟩ : BufTy).Contents (Elt Ideal)) :
    val_main_v51 (F := Ideal) x1 = wrapCol (dstOf x1) := by
  unfold val_main_v51 val_main_v50 val_main_v47 val_main_v49 val_main_v46 val_main_v48 val_main_c_6 val_main_c_7
  rw [dst_ref]
  rfl

/-- The neighbour counts. -/
theorem cnt_ref (x1 : (⟨S2x800000, .i32⟩ : BufTy).Contents (Elt Ideal)) :
    val_main_v27 (F := Ideal) x1 = cntOf x1 := by
  unfold val_main_v27 val_main_v25 val_main_v26 val_main_v24 val_main_cst_2 val_main_cst_1
  rw [dst_ref]
  rfl

/-- The neighbour sums of any node array standing where the node stage's result stands. -/
theorem agg_ref (x0 : (⟨S50000x128, .f32⟩ : BufTy).Contents (Elt Ideal))
    (x1 : (⟨S2x800000, .i32⟩ : BufTy).Contents (Elt Ideal))
    (x3 : (⟨S128x128, .f32⟩ : BufTy).Contents (Elt Ideal)) (x4 : (⟨S128, .f32⟩ : BufTy).Contents (Elt Ideal)) :
    val_main_v23 (F := Ideal) x0 x1 x3 x4 = aggOf (val_main_v4 (F := Ideal) x0 x3 x4) x1 := by
  unfold val_main_v23 val_main_v21 val_main_v22 val_main_v20 val_main_cst
  rw [dst_ref, srcCol_ref', fetch_ref]
  rfl

/-! ## The three dense stages -/

/-- The reference's node stage is the node rows  H . -/
theorem node_ref (x0 : (⟨S50000x128, .f32⟩ : BufTy).Contents (Elt Ideal))
    (x3 : (⟨S128x128, .f32⟩ : BufTy).Contents (Elt Ideal))
    (x4 : (⟨S128, .f32⟩ : BufTy).Contents (Elt Ideal)) :
    val_main_v4 (F := Ideal) x0 x3 x4 = hOf x0 x3 x4 := by
  unfold val_main_v4 val_main_v3 val_main_v0 val_main_v2 val_main_v1 val_main_call0_v0 val_main_call0_cst
  exact host_node_eq dot_S50000x128_S128x128_S50000x128_1_0_0_1_n_n rfl rfl rfl rfl rfl rfl _ _ _ x0 x3 x4

/-- The reference's combine stage is the combined rows  HC  of the node rows. -/
theorem combine_ref (x0 : (⟨S50000x128, .f32⟩ : BufTy).Contents (Elt Ideal))
    (x1 : (⟨S2x800000, .i32⟩ : BufTy).Contents (Elt Ideal))
    (x3 : (⟨S128x128, .f32⟩ : BufTy).Contents (Elt Ideal))
    (x4 : (⟨S128, .f32⟩ : BufTy).Contents (Elt Ideal))
    (x7 : (⟨S128x128, .f32⟩ : BufTy).Contents (Elt Ideal))
    (x8 : (⟨S128, .f32⟩ : BufTy).Contents (Elt Ideal))
    (x9 : (⟨S128x128, .f32⟩ : BufTy).Contents (Elt Ideal)) :
    val_main_v38 (F := Ideal) x0 x1 x3 x4 x7 x8 x9 = hcOf (hOf x0 x3 x4) x1 x7 x8 x9 := by
  unfold val_main_v38 val_main_v36 val_main_v37 val_main_v33 val_main_v35 val_main_v34 val_main_v32 val_main_v31
    val_main_v30 val_main_v29 val_main_v28 val_main_cst_3
  refine (host_combine_eq dot_S50000x128_S128x128_S50000x128_1_0_0_1_n_n rfl rfl rfl rfl rfl rfl
    dot_S50000x128_S128x128_S50000x128_1_0_0_1_n_n rfl rfl rfl rfl rfl rfl _ _ _ _ _
    (val_main_v23 (F := Ideal) x0 x1 x3 x4) (val_main_v27 (F := Ideal) x1) (val_main_v4 (F := Ideal) x0 x3 x4) x7 x8 x9).trans ?_
  rw [agg_ref, cnt_ref, node_ref]
  rfl

/-- The reference's edge stage is the network's scores. -/
theorem edge_ref (x0 : (⟨S50000x128, .f32⟩ : BufTy).Contents (Elt Ideal))
    (x1 : (⟨S2x800000, .i32⟩ : BufTy).Contents (Elt Ideal))
    (x2 : (⟨S800000x64, .f32⟩ : BufTy).Contents (Elt Ideal))
    (x3 : (⟨S128x128, .f32⟩ : BufTy).Contents (Elt Ideal))
    (x4 : (⟨S128, .f32⟩ : BufTy).Contents (Elt Ideal))
    (x5 : (⟨S64x128, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal))
    (x9 : (⟨S128x128, .f32⟩ : BufTy).Contents (Elt Ideal))
    (x10 : (⟨S128x2, .f32⟩ : BufTy).Contents (Elt Ideal))
    (x11 : (⟨S2, .f32⟩ : BufTy).Contents (Elt Ideal)) :
    val_main_v60 (F := Ideal) x0 x1 x2 x3 x4 x5 x6 x7 x8 x9 x10 x11 = outOf x0 x1 x2 x3 x4 x5 x6 x7 x8 x9 x10 x11 := by
  unfold val_main_v60 val_main_v57 val_main_v59 val_main_v58 val_main_v56 val_main_v55 val_main_cst_8 val_main_v54
    val_main_v53 val_main_v9 val_main_v8 val_main_v5 val_main_v7 val_main_v6 val_main_call1_v0 val_main_call1_cst
  refine (host_edge_eq dot_S800000x64_S64x128_S800000x128_1_0_0_1_n_n rfl rfl rfl rfl rfl rfl
    dot_S800000x128_S128x2_S800000x2_1_0_0_1_n_n rfl rfl rfl rfl rfl rfl _ _ _ _ _ x2 x5 x6
    (val_main_v45 (F := Ideal) x0 x1 x3 x4 x7 x8 x9) (val_main_v52 (F := Ideal) x0 x1 x3 x4 x7 x8 x9) x10 x11).trans ?_
  unfold val_main_v45 val_main_v52
  rw [fetch_ref, fetch_ref, srcCol_ref, dstCol_ref, combine_ref]
  rfl

/-- The reference run's result term is the network function of the twelve argument arrays. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v60 (F := Ideal) m c
      = Cert.KernelIdeal.Hand.outOf
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11)) :=
  (Cert.ReferenceIdeal.Read.val_main_v60_eq (F := Ideal) m c).trans (edge_ref _ _ _ _ _ _ _ _ _ _ _ _)

end Cert.ReferenceIdeal.RefValue

end
-- ==== Proof.lean ====
/-
  An edge-scoring graph network in three dense stages, against its plain array reference, over the extended reals.

  Every node's feature row  x  becomes  h = max(x·Wn + bn, 0) . Each edge carries its source's  h  to its destination;
  a node's arriving rows are summed to  a , their number is  n , and the node's combined row is
  hc = ((a / max(n, 1))·Wl + bl) + h·Wr . Each edge is scored from its attribute row  e  and the combined rows  s, d  of
  its two end points:  (((s + d) + max(e·We + be, 0)) · ⅓)·Wc + bc , with ⅓ the binary32 word both programs carry.

  The kernel program computes the three dense stages tile by tile (5000 rows at a time, the operands of each product
  narrowed to bf16, which on the extended reals is the identity), and fetches rows by end point and sums rows by
  destination with the same host operations as the reference, in the same order. A dense stage acts on each row by
  itself, so the tiles written back one after another fill the array with the stage of the whole input
  (Region0, Region1, Region2, over the row functions of Spec); the host operations between the regions are read
  back one stretch at a time (KernelValue), and the result is the network function `outOf` of the twelve arguments
  (Final). The reference's composed term is the same function (RefValue): its products are the same sums over the
  contracted axis, its biases the same rows, its rectifiers the same maxima. No law beyond reading both spellings at an
  entry is needed, so the precondition (finite inputs) is never opened.

  The frames of the two kernel programs are the launches over their segments; the reference's frame is its run with
  the result dropped; nothing was rewritten on the way to the idealized kernel, so `preserves` is trivial.
-/
import proofs.«135330_j14267881357876_1_alg».proof.Defs
import proofs.«135330_j14267881357876_1_alg».proof.Proof.Gen.Kernel
import proofs.«135330_j14267881357876_1_alg».proof.Proof.Gen.Kernel.Skeleton
import proofs.«135330_j14267881357876_1_alg».proof.Proof.Gen.Kernel.Launch
import proofs.«135330_j14267881357876_1_alg».proof.Proof.Gen.Kernel.Points
import proofs.«135330_j14267881357876_1_alg».proof.Proof.Gen.Kernel.Frame
import proofs.«135330_j14267881357876_1_alg».proof.Proof.Gen.KernelIdeal
import proofs.«135330_j14267881357876_1_alg».proof.Proof.Gen.KernelIdeal.Skeleton
import proofs.«135330_j14267881357876_1_alg».proof.Proof.Gen.KernelIdeal.Launch
import proofs.«135330_j14267881357876_1_alg».proof.Proof.Gen.KernelIdeal.Points
import proofs.«135330_j14267881357876_1_alg».proof.Proof.Gen.KernelIdeal.Frame
import proofs.«135330_j14267881357876_1_alg».proof.Proof.Gen.ReferenceIdeal
import proofs.«135330_j14267881357876_1_alg».proof.Proof.Gen.Pre_finite_inputs
import proofs.«135330_j14267881357876_1_alg».proof.Proof.Gen.ReferenceIdeal.Run
import proofs.«135330_j14267881357876_1_alg».proof.Proof.Gen.ReferenceIdeal.Read
import proofs.«135330_j14267881357876_1_alg».proof.Proof.KernelRun
import proofs.«135330_j14267881357876_1_alg».proof.Proof.KernelValue
import proofs.«135330_j14267881357876_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to justify. -/
theorem preserves : Cert.preserves_Kernel_KernelIdeal := trivial

/-- From memories agreeing on the arguments both programs end with the network function of those arguments. -/
theorem algebraic : Cert.algebraic_KernelIdeal_ReferenceIdeal := by
  intro m ρ m' ρ' _ hagree
  refine ⟨fun c => Cert.KernelIdeal.Hand.outOf
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.kernel_value m ρ c), (h c).2⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.RefValue.ref_value, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
